-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4762x256 : Shape := ⟨2, ![4762, 256]⟩
abbrev S847x256 : Shape := ⟨2, ![847, 256]⟩
abbrev S256x256 : Shape := ⟨2, ![256, 256]⟩
abbrev S256 : Shape := ⟨1, ![256]⟩
abbrev S512x1 : Shape := ⟨2, ![512, 1]⟩
abbrev S1 : Shape := ⟨1, ![1]⟩
abbrev S200000 : Shape := ⟨1, ![200000]⟩
abbrev S_ : Shape := ⟨0, ![]⟩

class Facts : Prop where
  bcast_S_S4762x256 : S_.BroadcastsInDim S4762x256 (![] : Fin 0 → Fin S4762x256.rank)
  reducesTo_S4762x256_S_d0_1 : S4762x256.ReducesTo [0, 1] S_
  h_S_ : 0 < S_.numel
  bcast_S_S847x256 : S_.BroadcastsInDim S847x256 (![] : Fin 0 → Fin S847x256.rank)
  reducesTo_S847x256_S_d0_1 : S847x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part4 {F : FTy → Type} [FloatOps F] (main_arg11 : IVec S200000 32) (main_v62 : IVec S_ 1) (main_v65 : IVec S_ 1) : IVec S_ 1 :=
  let main_v66 : IVec S_ 1 := andi main_v62 main_v65
  let main_c_28 : IVec S_ 32 := constantI S_ 32 4762#32
  let main_v67 : IVec S200000 32 := broadcastInDim S200000 ![] bcast_S_S200000 main_c_28
  let main_v68 : IVec S200000 1 := cmpi .slt main_arg11 main_v67
  let main_c_29 : IVec S_ 1 := constantI S_ 1 1#1
  let main_v69 : IVec S_ 1 := (fun x v => Host.reduce IntOp.andi x v reducesTo_S200000_S_d0 h_S_) main_v68 main_c_29
  let main_v70 : IVec S_ 1 := andi main_v66 main_v69
  main_v70

def fn_part3 {F : FTy → Type} [FloatOps F] (main_arg9 : IVec S200000 32) (main_arg10 : IVec S200000 32) (main_arg11 : IVec S200000 32) (main_v46 : IVec S_ 1) (main_v49 : IVec S_ 1) : IVec S_ 1 :=
  let main_v50 : IVec S_ 1 := andi main_v46 main_v49
  let main_c_20 : IVec S_ 32 := constantI S_ 32 847#32
  let main_v51 : IVec S200000 32 := broadcastInDim S200000 ![] bcast_S_S200000 main_c_20
  let main_v52 : IVec S200000 1 := cmpi .slt main_arg9 main_v51
  let main_c_21 : IVec S_ 1 := constantI S_ 1 1#1
  let main_v53 : IVec S_ 1 := (fun x v => Host.reduce IntOp.andi x v reducesTo_S200000_S_d0 h_S_) main_v52 main_c_21
  let main_v54 : IVec S_ 1 := andi main_v50 main_v53
  let main_c_22 : IVec S_ 32 := constantI S_ 32 0#32
  let main_v55 : IVec S200000 32 := broadcastInDim S200000 ![] bcast_S_S200000 main_c_22
  let main_v56 : IVec S200000 1 := cmpi .sge main_arg10 main_v55
  let main_c_23 : IVec S_ 1 := constantI S_ 1 1#1
  let main_v57 : IVec S_ 1 := (fun x v => Host.reduce IntOp.andi x v reducesTo_S200000_S_d0 h_S_) main_v56 main_c_23
  let main_v58 : IVec S_ 1 := andi main_v54 main_v57
  let main_c_24 : IVec S_ 32 := constantI S_ 32 847#32
  let main_v59 : IVec S200000 32 := broadcastInDim S200000 ![] bcast_S_S200000 main_c_24
  let main_v60 : IVec S200000 1 := cmpi .slt main_arg10 main_v59
  let main_c_25 : IVec S_ 1 := constantI S_ 1 1#1
  let main_v61 : IVec S_ 1 := (fun x v => Host.reduce IntOp.andi x v reducesTo_S200000_S_d0 h_S_) main_v60 main_c_25
  let main_v62 : IVec S_ 1 := andi main_v58 main_v61
  let main_c_26 : IVec S_ 32 := constantI S_ 32 0#32
  let main_v63 : IVec S200000 32 := broadcastInDim S200000 ![] bcast_S_S200000 main_c_26
  let main_v64 : IVec S200000 1 := cmpi .sge main_arg11 main_v63
  let main_c_27 : IVec S_ 1 := constantI S_ 1 1#1
  let main_v65 : IVec S_ 1 := (fun x v => Host.reduce IntOp.andi x v reducesTo_S200000_S_d0 h_S_) main_v64 main_c_27
  fn_part4 (F := F) main_arg11 main_v62 main_v65

def fn_part2 {F : FTy → Type} [FloatOps F] (main_arg7 : FVec F S1 .f32) (main_arg8 : IVec S200000 32) (main_arg9 : IVec S200000 32) (main_arg10 : IVec S200000 32) (main_arg11 : IVec S200000 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S200000 32 := broadcastInDim S200000 ![] bcast_S_S200000 main_c_14
  let main_v40 : IVec S200000 1 := cmpi .sge main_arg8 main_v39
  let main_c_15 : IVec S_ 1 := constantI S_ 1 1#1
  let main_v41 : IVec S_ 1 := (fun x v => Host.reduce IntOp.andi x v reducesTo_S200000_S_d0 h_S_) main_v40 main_c_15
  let main_v42 : IVec S_ 1 := andi main_v38 main_v41
  let main_c_16 : IVec S_ 32 := constantI S_ 32 4762#32
  let main_v43 : IVec S200000 32 := broadcastInDim S200000 ![] bcast_S_S200000 main_c_16
  let main_v44 : IVec S200000 1 := cmpi .slt main_arg8 main_v43
  let main_c_17 : IVec S_ 1 := constantI S_ 1 1#1
  let main_v45 : IVec S_ 1 := (fun x v => Host.reduce IntOp.andi x v reducesTo_S200000_S_d0 h_S_) main_v44 main_c_17
  let main_v46 : IVec S_ 1 := andi main_v42 main_v45
  let main_c_18 : IVec S_ 32 := constantI S_ 32 0#32
  let main_v47 : IVec S200000 32 := broadcastInDim S200000 ![] bcast_S_S200000 main_c_18
  let main_v48 : IVec S200000 1 := cmpi .sge main_arg9 main_v47
  let main_c_19 : IVec S_ 1 := constantI S_ 1 1#1
  let main_v49 : IVec S_ 1 := (fun x v => Host.reduce IntOp.andi x v reducesTo_S200000_S_d0 h_S_) main_v48 main_c_19
  fn_part3 (F := F) main_arg9 main_arg10 main_arg11 main_v46 main_v49

def fn_part1 {F : FTy → Type} [FloatOps F] (main_arg4 : FVec F S256x256 .f32) (main_arg5 : FVec F S256 .f32) (main_arg6 : FVec F S512x1 .f32) (main_arg7 : FVec F S1 .f32) (main_arg8 : IVec S200000 32) (main_arg9 : IVec S200000 32) (main_arg10 : IVec S200000 32) (main_arg11 : IVec S200000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4762x256 .f32) (main_arg1 : FVec F S847x256 .f32) (main_arg2 : FVec F S256x256 .f32) (main_arg3 : FVec F S256 .f32) (main_arg4 : FVec F S256x256 .f32) (main_arg5 : FVec F S256 .f32) (main_arg6 : FVec F S512x1 .f32) (main_arg7 : FVec F S1 .f32) (main_arg8 : IVec S200000 32) (main_arg9 : IVec S200000 32) (main_arg10 : IVec S200000 32) (main_arg11 : IVec S200000 32) (main_arg12 : IVec S200000 32) (main_arg13 : IVec S200000 32) : IVec S_ 1 :=
  let main_v0 : FVec F S4762x256 .f32 := Host.absf main_arg0
  let main_cst : FVec F S_ .f32 := constant S_ .f32 0x7F800000#32
  let main_v1 : FVec F S4762x256 .f32 := broadcastInDim S4762x256 ![] bcast_S_S4762x256 main_cst
  let main_v2 : IVec S4762x256 1 := cmpf .olt main_v0 main_v1
  let main_c : IVec S_ 1 := constantI S_ 1 1#1
  let main_v3 : IVec S_ 1 := (fun x v => Host.reduce IntOp.andi x v reducesTo_S4762x256_S_d0_1 h_S_) main_v2 main_c
  let main_v4 : FVec F S847x256 .f32 := Host.absf main_arg1
  let main_cst_0 : FVec F S_ .f32 := constant S_ .f32 0x7F800000#32
  let main_v5 : FVec F S847x256 .f32 := broadcastInDim S847x256 ![] bcast_S_S847x256 main_cst_0
  let main_v6 : IVec S847x256 1 := cmpf .olt main_v4 main_v5
  let main_c_1 : IVec S_ 1 := constantI S_ 1 1#1
  let main_v7 : IVec S_ 1 := (fun x v => Host.reduce IntOp.andi x v reducesTo_S847x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S4762x256 : Shape := ⟨2, ![4762, 256]⟩
abbrev S847x256 : Shape := ⟨2, ![847, 256]⟩
abbrev S256x256 : Shape := ⟨2, ![256, 256]⟩
abbrev S256 : Shape := ⟨1, ![256]⟩
abbrev S512x1 : Shape := ⟨2, ![512, 1]⟩
abbrev S1 : Shape := ⟨1, ![1]⟩
abbrev S200000 : Shape := ⟨1, ![200000]⟩
abbrev S_ : Shape := ⟨0, ![]⟩
abbrev S4762 : Shape := ⟨1, ![4762]⟩
abbrev S200000x1 : Shape := ⟨2, ![200000, 1]⟩
abbrev S847 : Shape := ⟨1, ![847]⟩
abbrev S4762x1 : Shape := ⟨2, ![4762, 1]⟩
abbrev S847x1 : Shape := ⟨2, ![847, 1]⟩
abbrev S4033414 : Shape := ⟨1, ![4033414]⟩
abbrev S847x4762 : Shape := ⟨2, ![847, 4762]⟩
abbrev S4762x847 : Shape := ⟨2, ![4762, 847]⟩
abbrev S1x256 : Shape := ⟨2, ![1, 256]⟩
abbrev S256x1 : Shape := ⟨2, ![256, 1]⟩
abbrev S1x1 : Shape := ⟨2, ![1, 1]⟩

abbrev nBuf : Space → Nat
  | .hbm => 126
  | .vmem => 12
  | .smem => 0
  | _ => 0

abbrev bufTy : (tb : Table) → Fin (tcTables nBuf tb) → BufTy
  | .hbm, ⟨0, _⟩ => ⟨S4762x256, .f32⟩
  | .hbm, ⟨1, _⟩ => ⟨S847x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S200000, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S200000, .i32⟩
  | .hbm, ⟨13, _⟩ => ⟨S200000, .i32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S4762, .f32⟩
  | .hbm, ⟨18, _⟩ => ⟨S200000x1, .i32⟩
  | .hbm, ⟨19, _⟩ => ⟨S4762, .f32⟩
  | .hbm, ⟨20, _⟩ => ⟨S_, .f32⟩
  | .hbm, ⟨21, _⟩ => ⟨S_, .f32⟩
  | .hbm, ⟨22, _⟩ => ⟨S4762, .f32⟩
  | .hbm, ⟨23, _⟩ => ⟨S4762, .f32⟩
  | .hbm, ⟨24, _⟩ => ⟨S_, .f32⟩
  | .hbm, ⟨25, _⟩ => ⟨S4762, .f32⟩
  | .hbm, ⟨26, _⟩ => ⟨S4762, .f32⟩
  | .hbm, ⟨27, _⟩ => ⟨S_, .f32⟩
  | .hbm, ⟨28, _⟩ => ⟨S847, .f32⟩
  | .hbm, ⟨29, _⟩ => ⟨S200000x1, .i32⟩
  | .hbm, ⟨30, _⟩ => ⟨S847, .f32⟩
  | .hbm, ⟨31, _⟩ => ⟨S_, .f32⟩
  | .hbm, ⟨32, _⟩ => ⟨S_, .f32⟩
  | .hbm, ⟨33, _⟩ => ⟨S847, .f32⟩
  | .hbm, ⟨34, _⟩ => ⟨S847, .f32⟩
  | .hbm, ⟨35, _⟩ => ⟨S_, .f32⟩
  | .hbm, ⟨36, _⟩ => ⟨S847, .f32⟩
  | .hbm, ⟨37, _⟩ => ⟨S847, .f32⟩
  | .hbm, ⟨38, _⟩ => ⟨S_, .f32⟩
  | .hbm, ⟨39, _⟩ => ⟨S847, .f32⟩
  | .hbm, ⟨40, _⟩ => ⟨S200000x1, .i32⟩
  | .hbm, ⟨41, _⟩ => ⟨S847, .f32⟩
  | .hbm, ⟨42, _⟩ => ⟨S_, .f32⟩
  | .hbm, ⟨43, _⟩ => ⟨S_, .f32⟩
  | .hbm, ⟨44, _⟩ => ⟨S847, .f32⟩
  | .hbm, ⟨45, _⟩ => ⟨S847, .f32⟩
  | .hbm, ⟨46, _⟩ => ⟨S_, .f32⟩
  | .hbm, ⟨47, _⟩ => ⟨S847, .f32⟩
  | .hbm, ⟨48, _⟩ => ⟨S847, .f32⟩
  | .hbm, ⟨49, _⟩ => ⟨S_, .f32⟩
  | .hbm, ⟨50, _⟩ => ⟨S4762, .f32⟩
  | .hbm, ⟨51, _⟩ => ⟨S200000x1, .i32⟩
  | .hbm, ⟨52, _⟩ => ⟨S4762, .f32⟩
  | .hbm, ⟨53, _⟩ => ⟨S_, .f32⟩
  | .hbm, ⟨54, _⟩ => ⟨S_, .f32⟩
  | .hbm, ⟨55, _⟩ => ⟨S4762, .f32⟩
  | .hbm, ⟨56, _⟩ => ⟨S4762, .f32⟩
  | .hbm, ⟨57, _⟩ => ⟨S_, .f32⟩
  | .hbm, ⟨58, _⟩ => ⟨S4762, .f32⟩
  | .hbm, ⟨59, _⟩ => ⟨S4762, .f32⟩
  | .hbm, ⟨60, _⟩ => ⟨S4762x1, .f32⟩
  | .hbm, ⟨61, _⟩ => ⟨S4762x256, .f32⟩
  | .hbm, ⟨62, _⟩ => ⟨S4762x256, .f32⟩
  | .hbm, ⟨63, _⟩ => ⟨S4762x256, .bf16⟩
  | .hbm, ⟨64, _⟩ => ⟨S847x1, .f32⟩
  | .hbm, ⟨65, _⟩ => ⟨S847x256, .f32⟩
  | .hbm, ⟨66, _⟩ => ⟨S847x256, .f32⟩
  | .hbm, ⟨67, _⟩ => ⟨S847x256, .bf16⟩
  | .hbm, ⟨68, _⟩ => ⟨S_, .f32⟩
  | .hbm, ⟨69, _⟩ => ⟨S200000, .f32⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S_, .f32⟩
  | .hbm, ⟨75, _⟩ => ⟨S4033414, .f32⟩
  | .hbm, ⟨76, _⟩ => ⟨S200000x1, .i32⟩
  | .hbm, ⟨77, _⟩ => ⟨S4033414, .f32⟩
  | .hbm, ⟨78, _⟩ => ⟨S847x4762, .f32⟩
  | .hbm, ⟨79, _⟩ => ⟨S847x4762, .bf16⟩
  | .hbm, ⟨80, _⟩ => ⟨S_, .f32⟩
  | .hbm, ⟨81, _⟩ => ⟨S200000, .f32⟩
  | .hbm, ⟨82, _⟩ => ⟨S_, .i32⟩
  | .hbm, ⟨83, _⟩ => ⟨S200000, .i32⟩
  | .hbm, ⟨84, _⟩ => ⟨S200000, .i32⟩
  | .hbm, ⟨85, _⟩ => ⟨S200000, .i32⟩
  | .hbm, ⟨86, _⟩ => ⟨S_, .f32⟩
  | .hbm, ⟨87, _⟩ => ⟨S4033414, .f32⟩
  | .hbm, ⟨88, _⟩ => ⟨S200000x1, .i32⟩
  | .hbm, ⟨89, _⟩ => ⟨S4033414, .f32⟩
  | .hbm, ⟨90, _⟩ => ⟨S4762x847, .f32⟩
  | .hbm, ⟨91, _⟩ => ⟨S4762x847, .bf16⟩
  | .hbm, ⟨92, _⟩ => ⟨S256x256, .bf16⟩
  | .hbm, ⟨93, _⟩ => ⟨S256x256, .bf16⟩
  | .hbm, ⟨94, _⟩ => ⟨S1x256, .f32⟩
  | .hbm, ⟨95, _⟩ => ⟨S1x256, .f32⟩
  | .hbm, ⟨96, _⟩ => ⟨S847x1, .f32⟩
  | .hbm, ⟨97, _⟩ => ⟨S847x256, .f32⟩
  | .hbm, ⟨98, _⟩ => ⟨S4762x1, .f32⟩
  | .hbm, ⟨99, _⟩ => ⟨S4762x256, .f32⟩
  | .hbm, ⟨100, _⟩ => ⟨S256x1, .f32⟩
  | .hbm, ⟨101, _⟩ => ⟨S256x1, .f32⟩
  | .hbm, ⟨102, _⟩ => ⟨S4762x1, .f32⟩
  | .hbm, ⟨103, _⟩ => ⟨S847x1, .f32⟩
  | .hbm, ⟨104, _⟩ => ⟨S_, .i32⟩
  | .hbm, ⟨105, _⟩ => ⟨S200000, .i32⟩
  | .hbm, ⟨106, _⟩ => ⟨S200000, .i1⟩
  | .hbm, ⟨107, _⟩ => ⟨S_, .i32⟩
  | .hbm, ⟨108, _⟩ => ⟨S200000, .i32⟩
  | .hbm, ⟨109, _⟩ => ⟨S200000, .i32⟩
  | .hbm, ⟨110, _⟩ => ⟨S200000, .i32⟩
  | .hbm, ⟨111, _⟩ => ⟨S200000x1, .i32⟩
  | .hbm, ⟨112, _⟩ => ⟨S200000x1, .f32⟩
  | .hbm, ⟨113, _⟩ => ⟨S_, .i32⟩
  | .hbm, ⟨114, _⟩ => ⟨S200000, .i32⟩
  | .hbm, ⟨115, _⟩ => ⟨S200000, .i1⟩
  | .hbm, ⟨116, _⟩ => ⟨S_, .i32⟩
  | .hbm, ⟨117, _⟩ => ⟨S200000, .i32⟩
  | .hbm, ⟨118, _⟩ => ⟨S200000, .i32⟩
  | .hbm, ⟨119, _⟩ => ⟨S200000, .i32⟩
  | .hbm, ⟨120, _⟩ => ⟨S200000x1, .i32⟩
  | .hbm, ⟨121, _⟩ => ⟨S200000x1, .f32⟩
  | .hbm, ⟨122, _⟩ => ⟨S200000x1, .f32⟩
  | .hbm, ⟨123, _⟩ => ⟨S1x1, .f32⟩
  | .hbm, ⟨124, _⟩ => ⟨S200000x1, .f32⟩
  | .hbm, ⟨125, _⟩ => ⟨S200000x1, .f32⟩
  | .local _ .vmem, ⟨0, _⟩ => ⟨S847x4762, .bf16⟩
  | .local _ .vmem, ⟨1, _⟩ => ⟨S4762x256, .bf16⟩
  | .local _ .vmem, ⟨2, _⟩ => ⟨S847x1, .f32⟩
  | .local _ .vmem, ⟨3, _⟩ => ⟨S256x256, .bf16⟩
  | .local _ .vmem, ⟨4, _⟩ => ⟨S1x256, .f32⟩
  | .local _ .vmem, ⟨5, _⟩ => ⟨S847x256, .f32⟩
  | .local _ .vmem, ⟨6, _⟩ => ⟨S4762x847, .bf16⟩
  | .local _ .vmem, ⟨7, _⟩ => ⟨S847x256, .bf16⟩
  | .local _ .vmem, ⟨8, _⟩ => ⟨S4762x1, .f32⟩
  | .local _ .vmem, ⟨9, _⟩ => ⟨S256x256, .bf16⟩
  | .local _ .vmem, ⟨10, _⟩ => ⟨S1x256, .f32⟩
  | .local _ .vmem, ⟨11, _⟩ => ⟨S4762x256, .f32⟩
  | _, _ => ⟨S4762x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_cst_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_cst_6 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_v16 : Ref sig .tc := ⟨.hbm, 45, rfl⟩
abbrev main_cst_8 : Ref sig .tc := ⟨.hbm, 46, rfl⟩
abbrev main_v17 : Ref sig .tc := ⟨.hbm, 47, rfl⟩
abbrev main_v18 : Ref sig .tc := ⟨.hbm, 48, rfl⟩
abbrev main_cst_9 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_v22 : Ref sig .tc := ⟨.hbm, 56, rfl⟩
abbrev main_cst_11 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_12 : Ref sig .tc := ⟨.hbm, 68, rfl⟩
abbrev main_v33 : Ref sig .tc := ⟨.hbm, 69, rfl⟩
abbrev main_c : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_13 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_14 : Ref sig .tc := ⟨.hbm, 80, rfl⟩
abbrev main_v42 : Ref sig .tc := ⟨.hbm, 81, rfl⟩
abbrev main_c_15 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_16 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_19 : Ref sig .tc := ⟨.hbm, 113, rfl⟩
abbrev main_v70 : Ref sig .tc := ⟨.hbm, 114, rfl⟩
abbrev main_v71 : Ref sig .tc := ⟨.hbm, 115, rfl⟩
abbrev main_c_20 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S847x4762 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4762x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S847x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S847x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4762x847 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S847x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4762x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4762x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S200000 : S_.BroadcastsInDim S200000 (![] : Fin 0 → Fin S200000.rank)
  bcast_S_S4762 : S_.BroadcastsInDim S4762 (![] : Fin 0 → Fin S4762.rank)
  bcast_S200000_S200000x1_0 : S200000.BroadcastsInDim S200000x1 (![0] : Fin 1 → Fin S200000x1.rank)
  bcast_S_S847 : S_.BroadcastsInDim S847 (![] : Fin 0 → Fin S847.rank)
  bcast_S4762_S4762x1_0 : S4762.BroadcastsInDim S4762x1 (![0] : Fin 1 → Fin S4762x1.rank)
  bcast_S4762x1_S4762x256_0_1 : S4762x1.BroadcastsInDim S4762x256 (![0, 1] : Fin 2 → Fin S4762x256.rank)
  bitsLt_bf16_f32 : FTy.bits .bf16 < FTy.bits .f32
  bcast_S847_S847x1_0 : S847.BroadcastsInDim S847x1 (![0] : Fin 1 → Fin S847x1.rank)
  bcast_S847x1_S847x256_0_1 : S847x1.BroadcastsInDim S847x256 (![0, 1] : Fin 2 → Fin S847x256.rank)
  bcast_S_S4033414 : S_.BroadcastsInDim S4033414 (![] : Fin 0 → Fin S4033414.rank)
  shapeCasts_S4033414_S847x4762 : S4033414.ShapeCasts S847x4762
  shapeCasts_S4033414_S4762x847 : S4033414.ShapeCasts S4762x847
  shapeCasts_S256_S1x256 : S256.ShapeCasts S1x256
  shapeCasts_S847_S847x1 : S847.ShapeCasts S847x1
  inb_S847x4762_S847x4762_0_0 : ∀ a, (![0, 0] : Fin 2 → Nat) a + S847x4762.size a ≤ S847x4762.size a
  h_S847x4762 : 0 < S847x4762.numel
  shapeCasts_S847x4762_S847x4762 : S847x4762.ShapeCasts S847x4762
  inb_S4762x256_S4762x256_0_0 : ∀ a, (![0, 0] : Fin 2 → Nat) a + S4762x256.size a ≤ S4762x256.size a
  h_S4762x256 : 0 < S4762x256.numel
  shapeCasts_S4762x256_S4762x256 : S4762x256.ShapeCasts S4762x256
  inb_S847x1_S847x1_0_0 : ∀ a, (![0, 0] : Fin 2 → Nat) a + S847x1.size a ≤ S847x1.size a
  h_S847x1 : 0 < S847x1.numel
  shapeCasts_S847x1_S847x1 : S847x1.ShapeCasts S847x1
  broadcasts_S847x1_S847x256 : S847x1.Broadcasts S847x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S847x256 : S1x256.Broadcasts S847x256
  inb_S847x256_S847x256_0_0 : ∀ a, (![0, 0] : Fin 2 → Nat) a + S847x256.size a ≤ S847x256.size a
  h_S847x256 : 0 < S847x256.numel
  shapeCasts_S4762_S4762x1 : S4762.ShapeCasts S4762x1
  inb_S4762x847_S4762x847_0_0 : ∀ a, (![0, 0] : Fin 2 → Nat) a + S4762x847.size a ≤ S4762x847.size a
  h_S4762x847 : 0 < S4762x847.numel
  shapeCasts_S4762x847_S4762x847 : S4762x847.ShapeCasts S4762x847
  shapeCasts_S847x256_S847x256 : S847x256.ShapeCasts S847x256
  inb_S4762x1_S4762x1_0_0 : ∀ a, (![0, 0] : Fin 2 → Nat) a + S4762x1.size a ≤ S4762x1.size a
  h_S4762x1 : 0 < S4762x1.numel
  shapeCasts_S4762x1_S4762x1 : S4762x1.ShapeCasts S4762x1
  broadcasts_S4762x1_S4762x256 : S4762x1.Broadcasts S4762x256
  broadcasts_S1x256_S4762x256 : S1x256.Broadcasts S4762x256
  slices_S512x1_S256x1_0_0 : S512x1.Slices ![0, 0] S256x1
  slices_S512x1_S256x1_256_0 : S512x1.Slices ![256, 0] S256x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S4762_S200000x1_S200000_n_0_0_1_wf : ScatterDims.WF S4762 S200000x1 S200000 [] [0] [0] 1
  scatter_S847_S200000x1_S200000_n_0_0_1_wf : ScatterDims.WF S847 S200000x1 S200000 [] [0] [0] 1
  scatter_S4033414_S200000x1_S200000_n_0_0_1_wf : ScatterDims.WF S4033414 S200000x1 S200000 [] [0] [0] 1
  dot_S847x4762_S4762x256_S847x256_1_0_0_1_n_n_wf : DotDims.WF S847x4762 S4762x256 S847x256 [1] [0] [0] [1] [] []
  dot_S847x256_S256x256_S847x256_1_0_0_1_n_n_wf : DotDims.WF S847x256 S256x256 S847x256 [1] [0] [0] [1] [] []
  dot_S4762x847_S847x256_S4762x256_1_0_0_1_n_n_wf : DotDims.WF S4762x847 S847x256 S4762x256 [1] [0] [0] [1] [] []
  dot_S4762x256_S256x256_S4762x256_1_0_0_1_n_n_wf : DotDims.WF S4762x256 S256x256 S4762x256 [1] [0] [0] [1] [] []
  dot_S4762x256_S256x1_S4762x1_1_0_0_1_n_n_wf : DotDims.WF S4762x256 S256x1 S4762x1 [1] [0] [0] [1] [] []
  dot_S847x256_S256x1_S847x1_1_0_0_1_n_n_wf : DotDims.WF S847x256 S256x1 S847x1 [1] [0] [0] [1] [] []
  gather_S4762x1_S200000x1_S200000x1_1_0_n_n_0_1_11_wf : GatherDims.WF S4762x1 S200000x1 S200000x1 [1] [0] [] [0] [] 1 ![1, 1]
  gather_S847x1_S200000x1_S200000x1_1_0_n_n_0_1_11_wf : GatherDims.WF S847x1 S200000x1 S200000x1 [1] [0] [] [0] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S847x4762.size a ≤ S847x4762.size a
  hwx0_0 : ∀ i : grid0.Coords, EltTy.bits .bf16 = 32 ∨ (Rect.block (s := S847x4762) S847x4762.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4762x256.size a ≤ S4762x256.size a
  hwx0_1 : ∀ i : grid0.Coords, EltTy.bits .bf16 = 32 ∨ (Rect.block (s := S4762x256) S4762x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S847x1.size a ≤ S847x1.size a
  hwx0_2 : ∀ i : grid0.Coords, EltTy.bits .f32 = 32 ∨ (Rect.block (s := S847x1) S847x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S847x256.size a ≤ S847x256.size a
  hwx0_5 : ∀ i : grid0.Coords, EltTy.bits .f32 = 32 ∨ (Rect.block (s := S847x256) S847x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4762x847.size a ≤ S4762x847.size a
  hwx1_0 : ∀ i : grid1.Coords, EltTy.bits .bf16 = 32 ∨ (Rect.block (s := S4762x847) S4762x847.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S847x256.size a ≤ S847x256.size a
  hwx1_1 : ∀ i : grid1.Coords, EltTy.bits .bf16 = 32 ∨ (Rect.block (s := S847x256) S847x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4762x1.size a ≤ S4762x1.size a
  hwx1_2 : ∀ i : grid1.Coords, EltTy.bits .f32 = 32 ∨ (Rect.block (s := S4762x1) S4762x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4762x256.size a ≤ S4762x256.size a
  hwx1_5 : ∀ i : grid1.Coords, EltTy.bits .f32 = 32 ∨ (Rect.block (s := S4762x256) S4762x256.size (cc1_transform_5 i) (hinb1_5 i)).WholeWords (EltTy.packing .f32)

variable [Facts₀]

def scatter_S4762_S200000x1_S200000_n_0_0_1 : ScatterDims S4762 S200000x1 S200000 where
  updateWindowDims := []
  insertedWindowDims := [0]
  scatterDimsToOperandDims := [0]
  indexVectorDim := 1
  wf := scatter_S4762_S200000x1_S200000_n_0_0_1_wf
def scatter_S847_S200000x1_S200000_n_0_0_1 : ScatterDims S847 S200000x1 S200000 where
  updateWindowDims := []
  insertedWindowDims := [0]
  scatterDimsToOperandDims := [0]
  indexVectorDim := 1
  wf := scatter_S847_S200000x1_S200000_n_0_0_1_wf
def scatter_S4033414_S200000x1_S200000_n_0_0_1 : ScatterDims S4033414 S200000x1 S200000 where
  updateWindowDims := []
  insertedWindowDims := [0]
  scatterDimsToOperandDims := [0]
  indexVectorDim := 1
  wf := scatter_S4033414_S200000x1_S200000_n_0_0_1_wf
def dot_S847x4762_S4762x256_S847x256_1_0_0_1_n_n : DotDims S847x4762 S4762x256 S847x256 where
  lhsContracting := [1]
  rhsContracting := [0]
  lhsNonContracting := [0]
  rhsNonContracting := [1]
  lhsBatch := []
  rhsBatch := []
  wf := dot_S847x4762_S4762x256_S847x256_1_0_0_1_n_n_wf
def dot_S847x256_S256x256_S847x256_1_0_0_1_n_n : DotDims S847x256 S256x256 S847x256 where
  lhsContracting := [1]
  rhsContracting := [0]
  lhsNonContracting := [0]
  rhsNonContracting := [1]
  lhsBatch := []
  rhsBatch := []
  wf := dot_S847x256_S256x256_S847x256_1_0_0_1_n_n_wf
def dot_S4762x847_S847x256_S4762x256_1_0_0_1_n_n : DotDims S4762x847 S847x256 S4762x256 where
  lhsContracting := [1]
  rhsContracting := [0]
  lhsNonContracting := [0]
  rhsNonContracting := [1]
  lhsBatch := []
  rhsBatch := []
  wf := dot_S4762x847_S847x256_S4762x256_1_0_0_1_n_n_wf
def dot_S4762x256_S256x256_S4762x256_1_0_0_1_n_n : DotDims S4762x256 S256x256 S4762x256 where
  lhsContracting := [1]
  rhsContracting := [0]
  lhsNonContracting := [0]
  rhsNonContracting := [1]
  lhsBatch := []
  rhsBatch := []
  wf := dot_S4762x256_S256x256_S4762x256_1_0_0_1_n_n_wf
def dot_S4762x256_S256x1_S4762x1_1_0_0_1_n_n : DotDims S4762x256 S256x1 S4762x1 where
  lhsContracting := [1]
  rhsContracting := [0]
  lhsNonContracting := [0]
  rhsNonContracting := [1]
  lhsBatch := []
  rhsBatch := []
  wf := dot_S4762x256_S256x1_S4762x1_1_0_0_1_n_n_wf
def dot_S847x256_S256x1_S847x1_1_0_0_1_n_n : DotDims S847x256 S256x1 S847x1 where
  lhsContracting := [1]
  rhsContracting := [0]
  lhsNonContracting := [0]
  rhsNonContracting := [1]
  lhsBatch := []
  rhsBatch := []
  wf := dot_S847x256_S256x1_S847x1_1_0_0_1_n_n_wf
def gather_S4762x1_S200000x1_S200000x1_1_0_n_n_0_1_11 : GatherDims S4762x1 S200000x1 S200000x1 where
  offsetDims := [1]
  collapsedSliceDims := [0]
  operandBatchingDims := []
  startIndicesBatchingDims := []
  startIndexMap := [0]
  indexVectorDim := 1
  sliceSizes := ![1, 1]
  wf := gather_S4762x1_S200000x1_S200000x1_1_0_n_n_0_1_11_wf
def gather_S847x1_S200000x1_S200000x1_1_0_n_n_0_1_11 : GatherDims S847x1 S200000x1 S200000x1 where
  offsetDims := [1]
  collapsedSliceDims := [0]
  operandBatchingDims := []
  startIndicesBatchingDims := []
  startIndexMap := [0]
  indexVectorDim := 1
  sliceSizes := ![1, 1]
  wf := gather_S847x1_S200000x1_S200000x1_1_0_n_n_0_1_11_wf

abbrev win0_0 : Pipeline.Window sig grid0 :=
  Pipeline.Window.ofSpec (Memref.whole main_v41) S847x4762.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4762x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S847x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S847x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S4762x847.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v32) S847x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S4762x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S4762x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4762x256 : Shape := ⟨2, ![4762, 256]⟩
abbrev S847x256 : Shape := ⟨2, ![847, 256]⟩
abbrev S256x256 : Shape := ⟨2, ![256, 256]⟩
abbrev S256 : Shape := ⟨1, ![256]⟩
abbrev S512x1 : Shape := ⟨2, ![512, 1]⟩
abbrev S1 : Shape := ⟨1, ![1]⟩
abbrev S200000 : Shape := ⟨1, ![200000]⟩
abbrev S_ : Shape := ⟨0, ![]⟩
abbrev S4762 : Shape := ⟨1, ![4762]⟩
abbrev S200000x1 : Shape := ⟨2, ![200000, 1]⟩
abbrev S4762x1 : Shape := ⟨2, ![4762, 1]⟩
abbrev S200000x256 : Shape := ⟨2, ![200000, 256]⟩
abbrev S847 : Shape := ⟨1, ![847]⟩
abbrev S847x1 : Shape := ⟨2, ![847, 1]⟩
abbrev S1x256 : Shape := ⟨2, ![1, 256]⟩
abbrev S200000x512 : Shape := ⟨2, ![200000, 512]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S4762x256, .f32⟩
  | 1 => ⟨S847x256, .f32⟩
  | 2 => ⟨S256x256, .f32⟩
  | 3 => ⟨S256, .f32⟩
  | 4 => ⟨S256x256, .f32⟩
  | 5 => ⟨S256, .f32⟩
  | 6 => ⟨S512x1, .f32⟩
  | 7 => ⟨S1, .f32⟩
  | 8 => ⟨S200000, .i32⟩
  | 9 => ⟨S200000, .i32⟩
  | 10 => ⟨S200000, .i32⟩
  | 11 => ⟨S200000, .i32⟩
  | 12 => ⟨S200000, .i32⟩
  | 13 => ⟨S200000, .i32⟩
  | 14 => ⟨S_, .f32⟩
  | 15 => ⟨S200000, .f32⟩
  | 16 => ⟨S_, .f32⟩
  | 17 => ⟨S4762, .f32⟩
  | 18 => ⟨S200000x1, .i32⟩
  | 19 => ⟨S4762, .f32⟩
  | 20 => ⟨S_, .f32⟩
  | 21 => ⟨S_, .f32⟩
  | 22 => ⟨S4762, .f32⟩
  | 23 => ⟨S4762, .f32⟩
  | 24 => ⟨S_, .f32⟩
  | 25 => ⟨S4762, .f32⟩
  | 26 => ⟨S4762, .f32⟩
  | 27 => ⟨S4762x1, .f32⟩
  | 28 => ⟨S4762x256, .f32⟩
  | 29 => ⟨S4762x256, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x256, .f32⟩
  | 39 => ⟨S_, .f32⟩
  | 40 => ⟨S847x256, .f32⟩
  | 41 => ⟨S200000x1, .i32⟩
  | 42 => ⟨S847x256, .f32⟩
  | 43 => ⟨S_, .f32⟩
  | 44 => ⟨S847, .f32⟩
  | 45 => ⟨S200000x1, .i32⟩
  | 46 => ⟨S847, .f32⟩
  | 47 => ⟨S_, .f32⟩
  | 48 => ⟨S_, .f32⟩
  | 49 => ⟨S847, .f32⟩
  | 50 => ⟨S847, .f32⟩
  | 51 => ⟨S_, .f32⟩
  | 52 => ⟨S847, .f32⟩
  | 53 => ⟨S847, .f32⟩
  | 54 => ⟨S847x1, .f32⟩
  | 55 => ⟨S847x256, .f32⟩
  | 56 => ⟨S847x256, .f32⟩
  | 57 => ⟨S847x256, .f32⟩
  | 58 => ⟨S1x256, .f32⟩
  | 59 => ⟨S847x256, .f32⟩
  | 60 => ⟨S847x256, .f32⟩
  | 61 => ⟨S_, .f32⟩
  | 62 => ⟨S200000, .f32⟩
  | 63 => ⟨S_, .f32⟩
  | 64 => ⟨S847, .f32⟩
  | 65 => ⟨S200000x1, .i32⟩
  | 66 => ⟨S847, .f32⟩
  | 67 => ⟨S_, .f32⟩
  | 68 => ⟨S_, .f32⟩
  | 69 => ⟨S847, .f32⟩
  | 70 => ⟨S847, .f32⟩
  | 71 => ⟨S_, .f32⟩
  | 72 => ⟨S847, .f32⟩
  | 73 => ⟨S847, .f32⟩
  | 74 => ⟨S847x1, .f32⟩
  | 75 => ⟨S847x256, .f32⟩
  | 76 => ⟨S847x256, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x256, .f32⟩
  | 86 => ⟨S_, .f32⟩
  | 87 => ⟨S4762x256, .f32⟩
  | 88 => ⟨S200000x1, .i32⟩
  | 89 => ⟨S4762x256, .f32⟩
  | 90 => ⟨S_, .f32⟩
  | 91 => ⟨S4762, .f32⟩
  | 92 => ⟨S200000x1, .i32⟩
  | 93 => ⟨S4762, .f32⟩
  | 94 => ⟨S_, .f32⟩
  | 95 => ⟨S_, .f32⟩
  | 96 => ⟨S4762, .f32⟩
  | 97 => ⟨S4762, .f32⟩
  | 98 => ⟨S_, .f32⟩
  | 99 => ⟨S4762, .f32⟩
  | 100 => ⟨S4762, .f32⟩
  | 101 => ⟨S4762x1, .f32⟩
  | 102 => ⟨S4762x256, .f32⟩
  | 103 => ⟨S4762x256, .f32⟩
  | 104 => ⟨S4762x256, .f32⟩
  | 105 => ⟨S1x256, .f32⟩
  | 106 => ⟨S4762x256, .f32⟩
  | 107 => ⟨S4762x256, .f32⟩
  | 108 => ⟨S_, .f32⟩
  | 109 => ⟨S4762x256, .f32⟩
  | 110 => ⟨S4762x256, .f32⟩
  | 111 => ⟨S_, .f32⟩
  | 112 => ⟨S847x256, .f32⟩
  | 113 => ⟨S847x256, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x256, .f32⟩
  | 123 => ⟨S_, .i32⟩
  | 124 => ⟨S200000, .i32⟩
  | 125 => ⟨S200000, .i1⟩
  | 126 => ⟨S_, .i32⟩
  | 127 => ⟨S200000, .i32⟩
  | _ => ⟨S4762x256, .f32⟩

abbrev hbmTy0_1 (i : Nat) : BufTy := match i % 128 with
  | 0 => ⟨S200000, .i32⟩
  | 1 => ⟨S200000, .i32⟩
  | 2 => ⟨S200000x1, .i32⟩
  | 3 => ⟨S200000x256, .f32⟩
  | 4 => ⟨S200000x512, .f32⟩
  | 5 => ⟨S200000x1, .f32⟩
  | 6 => ⟨S1x1, .f32⟩
  | 7 => ⟨S200000x1, .f32⟩
  | 8 => ⟨S200000x1, .f32⟩
  | _ => ⟨S4762x256, .f32⟩

abbrev hbmTy (i : Nat) : BufTy := match i / 128 with
  | 0 => hbmTy0_0 i
  | 1 => hbmTy0_1 i
  | _ => ⟨S4762x256, .f32⟩

abbrev bufTy : (tb : Table) → Fin (tcTables nBuf tb) → BufTy
  | .hbm, ⟨i, _⟩ => hbmTy i
  | _, _ => ⟨S4762x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_10 : Ref sig .tc := ⟨.hbm, 67, rfl⟩
abbrev main_call2_v0 : Ref sig .tc := ⟨.hbm, 68, rfl⟩
abbrev main_call2_v1 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_12 : Ref sig .tc := ⟨.hbm, 77, rfl⟩
abbrev main_v43 : Ref sig .tc := ⟨.hbm, 78, rfl⟩
abbrev main_v44 : Ref sig .tc := ⟨.hbm, 79, rfl⟩
abbrev main_c_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_14 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_15 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_16 : Ref sig .tc := ⟨.hbm, 94, rfl⟩
abbrev main_call3_v0 : Ref sig .tc := ⟨.hbm, 95, rfl⟩
abbrev main_call3_v1 : Ref sig .tc := ⟨.hbm, 96, rfl⟩
abbrev main_v56 : Ref sig .tc := ⟨.hbm, 97, rfl⟩
abbrev main_cst_17 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_call4_cst : Ref sig .tc := ⟨.hbm, 108, rfl⟩
abbrev main_call4_v0 : Ref sig .tc := ⟨.hbm, 109, rfl⟩
abbrev main_v66 : Ref sig .tc := ⟨.hbm, 110, rfl⟩
abbrev main_call5_cst : Ref sig .tc := ⟨.hbm, 111, rfl⟩
abbrev main_call5_v0 : Ref sig .tc := ⟨.hbm, 112, rfl⟩
abbrev main_v67 : Ref sig .tc := ⟨.hbm, 113, rfl⟩
abbrev main_c_18 : Ref sig .tc := ⟨.hbm, 114, rfl⟩
abbrev main_v68 : Ref sig .tc := ⟨.hbm, 115, rfl⟩
abbrev main_v69 : Ref sig .tc := ⟨.hbm, 116, rfl⟩
abbrev main_c_19 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_20 : Ref sig .tc := ⟨.hbm, 123, rfl⟩
abbrev main_v75 : Ref sig .tc := ⟨.hbm, 124, rfl⟩
abbrev main_v76 : Ref sig .tc := ⟨.hbm, 125, rfl⟩
abbrev main_c_21 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S4762 : S_.BroadcastsInDim S4762 (![] : Fin 0 → Fin S4762.rank)
  bcast_S200000_S200000x1_0 : S200000.BroadcastsInDim S200000x1 (![0] : Fin 1 → Fin S200000x1.rank)
  bcast_S4762_S4762x1_0 : S4762.BroadcastsInDim S4762x1 (![0] : Fin 1 → Fin S4762x1.rank)
  bcast_S4762x1_S4762x256_0_1 : S4762x1.BroadcastsInDim S4762x256 (![0, 1] : Fin 2 → Fin S4762x256.rank)
  bcast_S_S847x256 : S_.BroadcastsInDim S847x256 (![] : Fin 0 → Fin S847x256.rank)
  bcast_S_S847 : S_.BroadcastsInDim S847 (![] : Fin 0 → Fin S847.rank)
  bcast_S847_S847x1_0 : S847.BroadcastsInDim S847x1 (![0] : Fin 1 → Fin S847x1.rank)
  bcast_S847x1_S847x256_0_1 : S847x1.BroadcastsInDim S847x256 (![0, 1] : Fin 2 → Fin S847x256.rank)
  bcast_S256_S1x256_1 : S256.BroadcastsInDim S1x256 (![1] : Fin 1 → Fin S1x256.rank)
  bcast_S1x256_S847x256_0_1 : S1x256.BroadcastsInDim S847x256 (![0, 1] : Fin 2 → Fin S847x256.rank)
  bcast_S_S4762x256 : S_.BroadcastsInDim S4762x256 (![] : Fin 0 → Fin S4762x256.rank)
  bcast_S1x256_S4762x256_0_1 : S1x256.BroadcastsInDim S4762x256 (![0, 1] : Fin 2 → Fin S4762x256.rank)
  concatenates_S200000x256_S200000x256_S200000x512_d1 : Shape.Concatenates [S200000x256, S200000x256] S200000x512 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S4762_S200000x1_S200000_n_0_0_1_wf : ScatterDims.WF S4762 S200000x1 S200000 [] [0] [0] 1
  gather_S4762x256_S200000x1_S200000x256_1_0_n_n_0_1_1256_wf : GatherDims.WF S4762x256 S200000x1 S200000x256 [1] [0] [] [0] [] 1 ![1, 256]
  scatter_S847x256_S200000x1_S200000x256_1_0_0_1_wf : ScatterDims.WF S847x256 S200000x1 S200000x256 [1] [0] [0] 1
  scatter_S847_S200000x1_S200000_n_0_0_1_wf : ScatterDims.WF S847 S200000x1 S200000 [] [0] [0] 1
  dot_S847x256_S256x256_S847x256_1_0_0_1_n_n_wf : DotDims.WF S847x256 S256x256 S847x256 [1] [0] [0] [1] [] []
  gather_S847x256_S200000x1_S200000x256_1_0_n_n_0_1_1256_wf : GatherDims.WF S847x256 S200000x1 S200000x256 [1] [0] [] [0] [] 1 ![1, 256]
  scatter_S4762x256_S200000x1_S200000x256_1_0_0_1_wf : ScatterDims.WF S4762x256 S200000x1 S200000x256 [1] [0] [0] 1
  dot_S4762x256_S256x256_S4762x256_1_0_0_1_n_n_wf : DotDims.WF S4762x256 S256x256 S4762x256 [1] [0] [0] [1] [] []
  dot_S200000x512_S512x1_S200000x1_1_0_0_1_n_n_wf : DotDims.WF S200000x512 S512x1 S200000x1 [1] [0] [0] [1] [] []

variable [Facts₀]

def scatter_S4762_S200000x1_S200000_n_0_0_1 : ScatterDims S4762 S200000x1 S200000 where
  updateWindowDims := []
  insertedWindowDims := [0]
  scatterDimsToOperandDims := [0]
  indexVectorDim := 1
  wf := scatter_S4762_S200000x1_S200000_n_0_0_1_wf
def gather_S4762x256_S200000x1_S200000x256_1_0_n_n_0_1_1256 : GatherDims S4762x256 S200000x1 S200000x256 where
  offsetDims := [1]
  collapsedSliceDims := [0]
  operandBatchingDims := []
  startIndicesBatchingDims := []
  startIndexMap := [0]
  indexVectorDim := 1
  sliceSizes := ![1, 256]
  wf := gather_S4762x256_S200000x1_S200000x256_1_0_n_n_0_1_1256_wf
def scatter_S847x256_S200000x1_S200000x256_1_0_0_1 : ScatterDims S847x256 S200000x1 S200000x256 where
  updateWindowDims := [1]
  insertedWindowDims := [0]
  scatterDimsToOperandDims := [0]
  indexVectorDim := 1
  wf := scatter_S847x256_S200000x1_S200000x256_1_0_0_1_wf
def scatter_S847_S200000x1_S200000_n_0_0_1 : ScatterDims S847 S200000x1 S200000 where
  updateWindowDims := []
  insertedWindowDims := [0]
  scatterDimsToOperandDims := [0]
  indexVectorDim := 1
  wf := scatter_S847_S200000x1_S200000_n_0_0_1_wf
def dot_S847x256_S256x256_S847x256_1_0_0_1_n_n : DotDims S847x256 S256x256 S847x256 where
  lhsContracting := [1]
  rhsContracting := [0]
  lhsNonContracting := [0]
  rhsNonContracting := [1]
  lhsBatch := []
  rhsBatch := []
  wf := dot_S847x256_S256x256_S847x256_1_0_0_1_n_n_wf
def gather_S847x256_S200000x1_S200000x256_1_0_n_n_0_1_1256 : GatherDims S847x256 S200000x1 S200000x256 where
  offsetDims := [1]
  collapsedSliceDims := [0]
  operandBatchingDims := []
  startIndicesBatchingDims := []
  startIndexMap := [0]
  indexVectorDim := 1
  sliceSizes := ![1, 256]
  wf := gather_S847x256_S200000x1_S200000x256_1_0_n_n_0_1_1256_wf
def scatter_S4762x256_S200000x1_S200000x256_1_0_0_1 : ScatterDims S4762x256 S200000x1 S200000x256 where
  updateWindowDims := [1]
  insertedWindowDims := [0]
  scatterDimsToOperandDims := [0]
  indexVectorDim := 1
  wf := scatter_S4762x256_S200000x1_S200000x256_1_0_0_1_wf
def dot_S4762x256_S256x256_S4762x256_1_0_0_1_n_n : DotDims S4762x256 S256x256 S4762x256 where
  lhsContracting := [1]
  rhsContracting := [0]
  lhsNonContracting := [0]
  rhsNonContracting := [1]
  lhsBatch := []
  rhsBatch := []
  wf := dot_S4762x256_S256x256_S4762x256_1_0_0_1_n_n_wf
def dot_S200000x512_S512x1_S200000x1_1_0_0_1_n_n : DotDims S200000x512 S512x1 S200000x1 where
  lhsContracting := [1]
  rhsContracting := [0]
  lhsNonContracting := [0]
  rhsNonContracting := [1]
  lhsBatch := []
  rhsBatch := []
  wf := dot_S200000x512_S512x1_S200000x1_1_0_0_1_n_n_wf

class Facts : Prop extends Facts₀ where

variable [Facts]
-- ==== Proof.KernelValue.lean ====
/-
  What the kernel program's run leaves in its three result buffers, as terms of the argument arrays.

  Each kernel's grid has one point and every window's block is its whole array, so a region leaves in its output
  array the body's stored payload of the region's five input arrays as the region finds them. The host lines
  before, between and after the two regions are read back one operation at a time.
-/
import proofs.«424038_j7739531067737_3_alg».proof.Proof.Gen.KernelIdeal.Frame
import Idealize.ShloMosaic.Lib.Pipeline.Value
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

section Regions
variable (V : (c : Dev nD) → (b : Ref sig .tc) → Buf (Elt F) ((c : Thread nD τ).loc b))

/-! The one point's block of each window is the window's whole array. -/
theorem iblk0_0 (c : Dev nD) (t : Fin cfg0.N) : iblk0 V c 0 t = V c main_v41 := by
  unfold iblk0
  exact Memref.read_access_unit_zero (Elt F) main_v41 (funext fun a => by fin_cases a <;> rfl) _ (V c main_v41)
theorem iblk0_1 (c : Dev nD) (t : Fin cfg0.N) : iblk0 V c 1 t = V c main_v28 := by
  unfold iblk0
  exact Memref.read_access_unit_zero (Elt F) main_v28 (funext fun a => by fin_cases a <;> rfl) _ (V c main_v28)
theorem iblk0_2 (c : Dev nD) (t : Fin cfg0.N) : iblk0 V c 2 t = V c main_v55 := by
  unfold iblk0
  exact Memref.read_access_unit_zero (Elt F) main_v55 (funext fun a => by fin_cases a <;> rfl) _ (V c main_v55)
theorem iblk0_3 (c : Dev nD) (t : Fin cfg0.N) : iblk0 V c 3 t = V c main_v51 := by
  unfold iblk0
  exact Memref.read_access_unit_zero (Elt F) main_v51 (funext fun a => by fin_cases a <;> rfl) _ (V c main_v51)
theorem iblk0_4 (c : Dev nD) (t : Fin cfg0.N) : iblk0 V c 4 t = V c main_v53 := by
  unfold iblk0
  exact Memref.read_access_unit_zero (Elt F) main_v53 (funext fun a => by fin_cases a <;> rfl) _ (V c main_v53)

/-- After region 0 its output array holds the body's stored payload of the region's five input arrays as it finds them. -/
theorem region0_out (c : Dev nD) :
    (dat0 V c).arrAt 5 cfg0.N = k0_pay1 (V c main_v41) (V c main_v28) (V c main_v55) (V c main_v51) (V c main_v53) := by
  refine (dat0 V c).arrAt_eq_of_cover 5 _ (fun t _ => ?_) (fun i => ?_)
  · show (cfg0.win 5).cut (grid0.coords t) ((dat0 V c).after 5 t) = _
    rw [after0_5]
    unfold out0_5
    rw [View.canon_unit_zero hz2]
    simp only [View.ld_unit_zero (S := S847x4762) hz2, View.ld_unit_zero (S := S4762x256) hz2, View.ld_unit_zero (S := S847x1) hz2, View.ld_unit_zero (S := S256x256) hz2, View.ld_unit_zero (S := S1x256) hz2]
    rw [iblk0_0, iblk0_1, iblk0_2, iblk0_3, iblk0_4]
    exact (Memref.read_access_unit_zero (Elt F) main_v56 (funext fun a => by fin_cases a <;> rfl) _ _).symm
  · refine ⟨t0_0, flush0_5 t0_0, ?_⟩
    show i ∈ ((View.whole main_v56).slice (win0_5.rect t0_0)).set
    rw [View.set_slice_whole, Rect.mem_set_unit]
    intro a
    have h0 : (i 0 : Nat) < 847 := (i 0).isLt
    have h1 : (i 1 : Nat) < 256 := (i 1).isLt
    match a with
    | ⟨0, _⟩ =>
      show win0_5.index t0_0 0 * win0_5.size 0 ≤ (i 0 : Nat) ∧ (i 0 : Nat) < win0_5.index t0_0 0 * win0_5.size 0 + win0_5.xsize (grid0.coords t0_0) 0
      rw [show win0_5.index t0_0 0 * win0_5.size 0 = 0 from by decide +kernel, show win0_5.xsize (grid0.coords t0_0) 0 = 847 from by decide +kernel]; omega
    | ⟨1, _⟩ =>
      show win0_5.index t0_0 1 * win0_5.size 1 ≤ (i 1 : Nat) ∧ (i 1 : Nat) < win0_5.index t0_0 1 * win0_5.size 1 + win0_5.xsize (grid0.coords t0_0) 1
      rw [show win0_5.index t0_0 1 * win0_5.size 1 = 0 from by decide +kernel, show win0_5.xsize (grid0.coords t0_0) 1 = 256 from by decide +kernel]; omega
theorem iblk1_0 (c : Dev nD) (t : Fin cfg1.N) : iblk1 V c 0 t = V c main_v50 := by
  unfold iblk1
  exact Memref.read_access_unit_zero (Elt F) main_v50 (funext fun a => by fin_cases a <;> rfl) _ (V c main_v50)
theorem iblk1_1 (c : Dev nD) (t : Fin cfg1.N) : iblk1 V c 1 t = V c main_v32 := by
  unfold iblk1
  exact Memref.read_access_unit_zero (Elt F) main_v32 (funext fun a => by fin_cases a <;> rfl) _ (V c main_v32)
theorem iblk1_2 (c : Dev nD) (t : Fin cfg1.N) : iblk1 V c 2 t = V c main_v57 := by
  unfold iblk1
  exact Memref.read_access_unit_zero (Elt F) main_v57 (funext fun a => by fin_cases a <;> rfl) _ (V c main_v57)
theorem iblk1_3 (c : Dev nD) (t : Fin cfg1.N) : iblk1 V c 3 t = V c main_v52 := by
  unfold iblk1
  exact Memref.read_access_unit_zero (Elt F) main_v52 (funext fun a => by fin_cases a <;> rfl) _ (V c main_v52)
theorem iblk1_4 (c : Dev nD) (t : Fin cfg1.N) : iblk1 V c 4 t = V c main_v54 := by
  unfold iblk1
  exact Memref.read_access_unit_zero (Elt F) main_v54 (funext fun a => by fin_cases a <;> rfl) _ (V c main_v54)

/-- After region 1 its output array holds the body's stored payload of the region's five input arrays as it finds them. -/
theorem region1_out (c : Dev nD) :
    (dat1 V c).arrAt 5 cfg1.N = k1_pay1 (V c main_v50) (V c main_v32) (V c main_v57) (V c main_v52) (V c main_v54) := by
  refine (dat1 V c).arrAt_eq_of_cover 5 _ (fun t _ => ?_) (fun i => ?_)
  · show (cfg1.win 5).cut (grid1.coords t) ((dat1 V c).after 5 t) = _
    rw [after1_5]
    unfold out1_5
    rw [View.canon_unit_zero hz2]
    simp only [View.ld_unit_zero (S := S4762x847) hz2, View.ld_unit_zero (S := S847x256) hz2, View.ld_unit_zero (S := S4762x1) hz2, View.ld_unit_zero (S := S256x256) hz2, View.ld_unit_zero (S := S1x256) hz2]
    rw [iblk1_0, iblk1_1, iblk1_2, iblk1_3, iblk1_4]
    exact (Memref.read_access_unit_zero (Elt F) main_v58 (funext fun a => by fin_cases a <;> rfl) _ _).symm
  · refine ⟨t1_0, flush1_5 t1_0, ?_⟩
    show i ∈ ((View.whole main_v58).slice (win1_5.rect t1_0)).set
    rw [View.set_slice_whole, Rect.mem_set_unit]
    intro a
    have h0 : (i 0 : Nat) < 4762 := (i 0).isLt
    have h1 : (i 1 : Nat) < 256 := (i 1).isLt
    match a with
    | ⟨0, _⟩ =>
      show win1_5.index t1_0 0 * win1_5.size 0 ≤ (i 0 : Nat) ∧ (i 0 : Nat) < win1_5.index t1_0 0 * win1_5.size 0 + win1_5.xsize (grid1.coords t1_0) 0
      rw [show win1_5.index t1_0 0 * win1_5.size 0 = 0 from by decide +kernel, show win1_5.xsize (grid1.coords t1_0) 0 = 4762 from by decide +kernel]; omega
    | ⟨1, _⟩ =>
      show win1_5.index t1_0 1 * win1_5.size 1 ≤ (i 1 : Nat) ∧ (i 1 : Nat) < win1_5.index t1_0 1 * win1_5.size 1 + win1_5.xsize (grid1.coords t1_0) 1
      rw [show win1_5.index t1_0 1 * win1_5.size 1 = 0 from by decide +kernel, show win1_5.xsize (grid1.coords t1_0) 1 = 256 from by decide +kernel]; omega

end Regions

/-! ## The host terms of the argument arrays -/

/-- The degree norm of a gene-numbered word vector: (max 1 (number of edges at the node)) to the power −1/2. -/
def nrmG (x : IVec S200000 32) : FVec F S4762 .f32 :=
  Host.powf (maximumf (broadcastInDim S4762 ![] bcast_S_S4762 (id (constant S_ .f32 0x3F800000#32)))
    (Host.scatterAdd scatter_S4762_S200000x1_S200000_n_0_0_1 (broadcastInDim S4762 ![] bcast_S_S4762 (constant S_ .f32 0x00000000#32))
      (broadcastInDim S200000x1 ![0] bcast_S200000_S200000x1_0 x) (broadcastInDim S200000 ![] bcast_S_S200000 (constant S_ .f32 0x3F800000#32))))
    (broadcastInDim S4762 ![] bcast_S_S4762 (constant S_ .f32 0xBF000000#32))

/-- The degree norm of a cell-numbered word vector. -/
def nrmC (x : IVec S200000 32) : FVec F S847 .f32 :=
  Host.powf (maximumf (broadcastInDim S847 ![] bcast_S_S847 (id (constant S_ .f32 0x3F800000#32)))
    (Host.scatterAdd scatter_S847_S200000x1_S200000_n_0_0_1 (broadcastInDim S847 ![] bcast_S_S847 (constant S_ .f32 0x00000000#32))
      (broadcastInDim S200000x1 ![0] bcast_S200000_S200000x1_0 x) (broadcastInDim S200000 ![] bcast_S_S200000 (constant S_ .f32 0x3F800000#32))))
    (broadcastInDim S847 ![] bcast_S_S847 (constant S_ .f32 0xBF000000#32))

/-- Gene features scaled by the source norm. -/
def featG (x0 : FVec F S4762x256 .f32) (s : IVec S200000 32) : FVec F S4762x256 .f32 :=
  mulf x0 (broadcastInDim S4762x256 ![0, 1] bcast_S4762x1_S4762x256_0_1 (broadcastInDim S4762x1 ![0] bcast_S4762_S4762x1_0 (nrmG s)))

/-- Cell features scaled by the source norm. -/
def featC (x1 : FVec F S847x256 .f32) (s : IVec S200000 32) : FVec F S847x256 .f32 :=
  mulf x1 (broadcastInDim S847x256 ![0, 1] bcast_S847x1_S847x256_0_1 (broadcastInDim S847x1 ![0] bcast_S847_S847x1_0 (nrmC s)))

/-- The combined words destination · N + source, as a column. -/
def combCol (d s : IVec S200000 32) (N : BitVec 32) : IVec S200000x1 32 :=
  broadcastInDim S200000x1 ![0] bcast_S200000_S200000x1_0
    (addi (muli d (broadcastInDim S200000 ![] bcast_S_S200000 (constantI S_ 32 N))) s)

/-- The edge counts as one long vector. -/
def countVec (comb : IVec S200000x1 32) : FVec F S4033414 .f32 :=
  Host.scatterAdd scatter_S4033414_S200000x1_S200000_n_0_0_1 (broadcastInDim S4033414 ![] bcast_S_S4033414 (constant S_ .f32 0x00000000#32))
    comb (broadcastInDim S200000 ![] bcast_S_S200000 (constant S_ .f32 0x3F800000#32))

/-! ## The host lines before the first region, read back -/

section Host
variable (m : (ℓ : Loc nD τ sig) → Buf (Elt F) ℓ) (ρ : Dev nD → PrngReg)

theorem W9_v41 (c : Dev nD) : W9 m ρ c (Proc.devRef .tc main_v41) = truncf .bf16 (shapeCast S847x4762 (countVec (F := F) (combCol (m ((c : Thread nD τ).loc main_arg9)) (m ((c : Thread nD τ).loc main_arg8)) 4762#32)) shapeCasts_S4033414_S847x4762) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v28 (c : Dev nD) : W9 m ρ c (Proc.devRef .tc main_v28) = truncf .bf16 (featG (m ((c : Thread nD τ).loc main_arg0)) (m ((c : Thread nD τ).loc main_arg8))) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v55 (c : Dev nD) : W9 m ρ c (Proc.devRef .tc main_v55) = shapeCast S847x1 (nrmC (F := F) (m ((c : Thread nD τ).loc main_arg9))) shapeCasts_S847_S847x1 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v51 (c : Dev nD) : W9 m ρ c (Proc.devRef .tc main_v51) = truncf .bf16 (m ((c : Thread nD τ).loc main_arg2)) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v53 (c : Dev nD) : W9 m ρ c (Proc.devRef .tc main_v53) = shapeCast S1x256 (m ((c : Thread nD τ).loc main_arg3)) shapeCasts_S256_S1x256 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v50 (c : Dev nD) : W9 m ρ c (Proc.devRef .tc main_v50) = truncf .bf16 (shapeCast S4762x847 (countVec (F := F) (combCol (m ((c : Thread nD τ).loc main_arg11)) (m ((c : Thread nD τ).loc main_arg10)) 847#32)) shapeCasts_S4033414_S4762x847) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v32 (c : Dev nD) : W9 m ρ c (Proc.devRef .tc main_v32) = truncf .bf16 (featC (m ((c : Thread nD τ).loc main_arg1)) (m ((c : Thread nD τ).loc main_arg10))) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v24 (c : Dev nD) : W9 m ρ c (Proc.devRef .tc main_v24) = nrmG (F := F) (m ((c : Thread nD τ).loc main_arg11)) := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v52 (c : Dev nD) : W9 m ρ c (Proc.devRef .tc main_v52) = truncf .bf16 (m ((c : Thread nD τ).loc main_arg4)) bitsLt_bf16_f32 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_v54 (c : Dev nD) : W9 m ρ c (Proc.devRef .tc main_v54) = shapeCast S1x256 (m ((c : Thread nD τ).loc main_arg5)) shapeCasts_S256_S1x256 := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_arg6 (c : Dev nD) : W9 m ρ c (Proc.devRef .tc main_arg6) = m ((c : Thread nD τ).loc main_arg6) := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_arg7 (c : Dev nD) : W9 m ρ c (Proc.devRef .tc main_arg7) = m ((c : Thread nD τ).loc main_arg7) := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_arg12 (c : Dev nD) : W9 m ρ c (Proc.devRef .tc main_arg12) = m ((c : Thread nD τ).loc main_arg12) := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl
theorem W9_arg13 (c : Dev nD) : W9 m ρ c (Proc.devRef .tc main_arg13) = m ((c : Thread nD τ).loc main_arg13) := by
  dsimp only [W9, W8, W7, W6, W5, W4, W3, W2, W1, W0]
  simp only [hostOps0, hostOps0_1, hostOps0_2, hostOps0_3, hostOps0_4, hostOps0_5, hostOps0_6, hostOps0_7, hostOps0_8]
  after_results_simp <;> rfl

end Host

/-! ## Through the two regions to the results -/

section Tail
variable (m : (ℓ : Loc nD τ sig) → Buf (Elt F) ℓ) (ρ : Dev nD → PrngReg)

/-- The cell table the first region leaves, of the argument arrays. -/
def cellOut (c : Dev nD) : FVec F S847x256 .f32 :=
  k0_pay1 (truncf .bf16 (shapeCast S847x4762 (countVec (F := F) (combCol (m ((c : Thread nD τ).loc main_arg9)) (m ((c : Thread nD τ).loc main_arg8)) 4762#32)) shapeCasts_S4033414_S847x4762) bitsLt_bf16_f32)
    (truncf .bf16 (featG (m ((c : Thread nD τ).loc main_arg0)) (m ((c : Thread nD τ).loc main_arg8))) bitsLt_bf16_f32)
    (shapeCast S847x1 (nrmC (F := F) (m ((c : Thread nD τ).loc main_arg9))) shapeCasts_S847_S847x1) (truncf .bf16 (m ((c : Thread nD τ).loc main_arg2)) bitsLt_bf16_f32) (shapeCast S1x256 (m ((c : Thread nD τ).loc main_arg3)) shapeCasts_S256_S1x256)

/-- The gene table the second region leaves, of the argument arrays. -/
def geneOut (c : Dev nD) : FVec F S4762x256 .f32 :=
  k1_pay1 (truncf .bf16 (shapeCast S4762x847 (countVec (F := F) (combCol (m ((c : Thread nD τ).loc main_arg11)) (m ((c : Thread nD τ).loc main_arg10)) 847#32)) shapeCasts_S4033414_S4762x847) bitsLt_bf16_f32)
    (truncf .bf16 (featC (m ((c : Thread nD τ).loc main_arg1)) (m ((c : Thread nD τ).loc main_arg10))) bitsLt_bf16_f32)
    (shapeCast S4762x1 (nrmG (F := F) (m ((c : Thread nD τ).loc main_arg11))) shapeCasts_S4762_S4762x1) (truncf .bf16 (m ((c : Thread nD τ).loc main_arg4)) bitsLt_bf16_f32) (shapeCast S1x256 (m ((c : Thread nD τ).loc main_arg5)) shapeCasts_S256_S1x256)

theorem W10_v56 (c : Dev nD) : W10 m ρ c (Proc.devRef .tc main_v56) = cellOut m c := by
  rw [show W10 m ρ c (Proc.devRef .tc main_v56) = (dat0 (V9 m ρ) c).arrAt 5 cfg0.N from W10_arr m ρ c 5, region0_out]
  show k0_pay1 (W9 m ρ c (Proc.devRef .tc main_v41)) (W9 m ρ c (Proc.devRef .tc main_v28)) (W9 m ρ c (Proc.devRef .tc main_v55))
    (W9 m ρ c (Proc.devRef .tc main_v51)) (W9 m ρ c (Proc.devRef .tc main_v53)) = _
  rw [W9_v41, W9_v28, W9_v55, W9_v51, W9_v53]
  rfl

/-- A buffer the one host line between the regions does not write, and no region array of the first region. -/
theorem W11_of_W9 (c : Dev nD) (b : Ref sig .tc) (hb : b ≠ main_v57) (h0 : ∀ w, Pipeline.arrRef spec0 w ≠ b) :
    W11 m ρ c (Proc.devRef .tc b) = W9 m ρ c (Proc.devRef .tc b) := by
  refine Eq.trans ?_ (W10_of_ne m ρ c b h0)
  dsimp only [W11]
  simp only [hostOps1, StableHlo.after_cons, StableHlo.after_nil]
  rw [StableHlo.reshape_result_ne]
  exact hb

theorem W11_v57 (c : Dev nD) : W11 m ρ c (Proc.devRef .tc main_v57) = (shapeCast S4762x1 (nrmG (F := F) (m ((c : Thread nD τ).loc main_arg11))) shapeCasts_S4762_S4762x1) := by
  dsimp only [W11]
  simp only [hostOps1]
  after_results_simp
  rw [W10_of_ne m ρ c main_v24 (by decide), W9_v24]
  rfl

theorem W11_v56 (c : Dev nD) : W11 m ρ c (Proc.devRef .tc main_v56) = cellOut m c := by
  refine Eq.trans ?_ (W10_v56 m ρ c)
  dsimp only [W11]
  simp only [hostOps1, StableHlo.after_cons, StableHlo.after_nil]
  rw [StableHlo.reshape_result_ne]
  decide

theorem W12_v58 (c : Dev nD) : W12 m ρ c (Proc.devRef .tc main_v58) = geneOut m c := by
  rw [show W12 m ρ c (Proc.devRef .tc main_v58) = (dat1 (V11 m ρ) c).arrAt 5 cfg1.N from W12_arr m ρ c 5, region1_out]
  show k1_pay1 (W11 m ρ c (Proc.devRef .tc main_v50)) (W11 m ρ c (Proc.devRef .tc main_v32)) (W11 m ρ c (Proc.devRef .tc main_v57))
    (W11 m ρ c (Proc.devRef .tc main_v52)) (W11 m ρ c (Proc.devRef .tc main_v54)) = _
  rw [W11_v57, W11_of_W9 m ρ c main_v50 (by decide) (by decide), W11_of_W9 m ρ c main_v32 (by decide) (by decide),
    W11_of_W9 m ρ c main_v52 (by decide) (by decide), W11_of_W9 m ρ c main_v54 (by decide) (by decide),
    W9_v50, W9_v32, W9_v52, W9_v54]
  rfl

theorem W12_v56 (c : Dev nD) : W12 m ρ c (Proc.devRef .tc main_v56) = cellOut m c :=
  (W12_of_ne m ρ c main_v56 (by decide)).trans (W11_v56 m ρ c)

/-- An argument the tail reads, at the second region's exit, is as launched. -/
theorem W12_arg6 (c : Dev nD) : W12 m ρ c (Proc.devRef .tc main_arg6) = m ((c : Thread nD τ).loc main_arg6) :=
  (W12_of_ne m ρ c main_arg6 (by decide)).trans ((W11_of_W9 m ρ c main_arg6 (by decide) (by decide)).trans (W9_arg6 m ρ c))
theorem W12_arg7 (c : Dev nD) : W12 m ρ c (Proc.devRef .tc main_arg7) = m ((c : Thread nD τ).loc main_arg7) :=
  (W12_of_ne m ρ c main_arg7 (by decide)).trans ((W11_of_W9 m ρ c main_arg7 (by decide) (by decide)).trans (W9_arg7 m ρ c))
theorem W12_arg12 (c : Dev nD) : W12 m ρ c (Proc.devRef .tc main_arg12) = m ((c : Thread nD τ).loc main_arg12) :=
  (W12_of_ne m ρ c main_arg12 (by decide)).trans ((W11_of_W9 m ρ c main_arg12 (by decide) (by decide)).trans (W9_arg12 m ρ c))
theorem W12_arg13 (c : Dev nD) : W12 m ρ c (Proc.devRef .tc main_arg13) = m ((c : Thread nD τ).loc main_arg13) :=
  (W12_of_ne m ρ c main_arg13 (by decide)).trans ((W11_of_W9 m ρ c main_arg13 (by decide) (by decide)).trans (W9_arg13 m ρ c))

/-- The row lookup's index column of a word vector: a negative word wrapped by the table's length first. -/
def wrapCol (x : IVec S200000 32) (N : BitVec 32) : IVec S200000x1 32 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 N))) x)

theorem W13_v56 (c : Dev nD) : W13 m ρ c (Proc.devRef .tc main_v56) = cellOut m c := by
  refine Eq.trans ?_ (W12_v56 m ρ c)
  dsimp only [W13]
  simp only [hostOps2]
  after_results_simp

theorem W13_v58 (c : Dev nD) : W13 m ρ c (Proc.devRef .tc main_v58) = geneOut m c := by
  refine Eq.trans ?_ (W12_v58 m ρ c)
  dsimp only [W13]
  simp only [hostOps2]
  after_results_simp

theorem W13_v80 (c : Dev nD) : W13 m ρ c (Proc.devRef .tc main_v80) =
    addf (addf
      (Host.gather gather_S4762x1_S200000x1_S200000x1_1_0_n_n_0_1_11
        (Host.dotGeneral dot_S4762x256_S256x1_S4762x1_1_0_0_1_n_n none (geneOut m c) (extractStridedSlice S256x1 ![0, 0] (m ((c : Thread nD τ).loc main_arg6)) slices_S512x1_S256x1_0_0))
        (wrapCol (m ((c : Thread nD τ).loc main_arg12)) 4762#32))
      (Host.gather gather_S847x1_S200000x1_S200000x1_1_0_n_n_0_1_11
        (Host.dotGeneral dot_S847x256_S256x1_S847x1_1_0_0_1_n_n none (cellOut m c) (extractStridedSlice S256x1 ![256, 0] (m ((c : Thread nD τ).loc main_arg6)) slices_S512x1_S256x1_256_0))
        (wrapCol (m ((c : Thread nD τ).loc main_arg13)) 847#32)))
      (broadcastInDim S200000x1 ![0, 1] bcast_S1x1_S200000x1_0_1 (broadcastInDim S1x1 ![1] bcast_S1_S1x1_1 (m ((c : Thread nD τ).loc main_arg7)))) := by
  dsimp only [W13]
  simp only [hostOps2]
  after_results_simp
  rw [W12_v58, W12_v56, W12_arg6, W12_arg7, W12_arg12, W12_arg13]
  rfl

end Tail

end Cert.KernelIdeal.RunValue

end
-- ==== Proof.PreDecode.lean ====
/-
  The precondition, decoded: beside the finiteness of the float inputs it says that every source and destination
  word of the two relations is a node number of its own node set — gene numbers in [0, 4762), cell numbers in
  [0, 847) —, read signed. Each conjunct is an "all" over the 200000 edges of one signed comparison of the word
  with a constant; the conjunction being true makes every comparison true.
-/
import proofs.«424038_j7739531067737_3_alg».proof.Pre_finite_inputs
import Idealize.ShloMosaic.Lib.ReduceAll
import Idealize.ShloMosaic.Lib.StableHlo.Predicate
import Idealize.ShloMosaic.Lib.ValueIdx

noncomputable section

namespace Cert.Rgcn.Pre

open Idealize.ShloMosaic Idealize.ShloMosaic.ValueIdx Cert.Pre_finite_inputs

variable {F : FTy → Type} [FloatOps F] [Cert.Pre_finite_inputs.Facts]

/-- A word at least 0 and below the small constant `n`, both read signed, is a number of `[0, n)`. -/
theorem word_in_range (w : BitVec 32) (n : Nat) (hn : n < 2 ^ 31) (h0 : IntOp.cmpi .sge w (0#32) = 1#1)
    (h1 : IntOp.cmpi .slt w (BitVec.ofNat 32 n) = 1#1) : 0 ≤ w.toInt ∧ w.toInt < (n : ℤ) := by
  rw [IntOp.cmpi_sge] at h0
  rw [IntOp.cmpi_slt, StableHlo.Predicate.toInt_ofNat_small n hn] at h1
  exact ⟨h0, h1⟩

/-- Every edge's four relation words are node numbers of their node sets. -/
theorem in_range (x0 : FVec F S4762x256 .f32) (x1 : FVec F S847x256 .f32) (x2 : FVec F S256x256 .f32) (x3 : FVec F S256 .f32)
    (x4 : FVec F S256x256 .f32) (x5 : FVec F S256 .f32) (x6 : FVec F S512x1 .f32) (x7 : FVec F S1 .f32)
    (x8 x9 x10 x11 x12 x13 : IVec S200000 32)
    (h : Cert.Pre_finite_inputs.fn (F := F) x0 x1 x2 x3 x4 x5 x6 x7 x8 x9 x10 x11 x12 x13 = fun _ => 1#1) (e : Fin 200000) :
    (0 ≤ (x8 (ix1 e)).toInt ∧ (x8 (ix1 e)).toInt < 4762) ∧ (0 ≤ (x9 (ix1 e)).toInt ∧ (x9 (ix1 e)).toInt < 847)
      ∧ (0 ≤ (x10 (ix1 e)).toInt ∧ (x10 (ix1 e)).toInt < 847) ∧ (0 ≤ (x11 (ix1 e)).toInt ∧ (x11 (ix1 e)).toInt < 4762) := by
  haveI : Subsingleton S_.Idx := ⟨fun a b => funext fun d => d.elim0⟩
  -- the conjunction at its one index, its chain of operations opened
  have e0 := congrFun h ix0
  dsimp only [Cert.Pre_finite_inputs.fn, fn_part1, fn_part2, fn_part3, fn_part4] at e0
  -- the last eight conjuncts are the eight comparisons of the relation words; the float tests before them are dropped
  obtain ⟨e0, d11⟩ := IntOp.andi_eq_one.1 e0
  obtain ⟨e0, c11⟩ := IntOp.andi_eq_one.1 e0
  obtain ⟨e0, d10⟩ := IntOp.andi_eq_one.1 e0
  obtain ⟨e0, c10⟩ := IntOp.andi_eq_one.1 e0
  obtain ⟨e0, d9⟩ := IntOp.andi_eq_one.1 e0
  obtain ⟨e0, c9⟩ := IntOp.andi_eq_one.1 e0
  obtain ⟨e0, d8⟩ := IntOp.andi_eq_one.1 e0
  obtain ⟨-, c8⟩ := IntOp.andi_eq_one.1 e0
  -- each "all" is true at edge e; the constant it compares with is a broadcast scalar
  have c8e : IntOp.cmpi .sge (x8 (ix1 e)) (0#32) = 1#1 := Host.reduce_andi_all _ _ _ _ ix0 c8 (ix1 e)
  have d8e : IntOp.cmpi .slt (x8 (ix1 e)) (BitVec.ofNat 32 4762) = 1#1 := Host.reduce_andi_all _ _ _ _ ix0 d8 (ix1 e)
  have c9e : IntOp.cmpi .sge (x9 (ix1 e)) (0#32) = 1#1 := Host.reduce_andi_all _ _ _ _ ix0 c9 (ix1 e)
  have d9e : IntOp.cmpi .slt (x9 (ix1 e)) (BitVec.ofNat 32 847) = 1#1 := Host.reduce_andi_all _ _ _ _ ix0 d9 (ix1 e)
  have c10e : IntOp.cmpi .sge (x10 (ix1 e)) (0#32) = 1#1 := Host.reduce_andi_all _ _ _ _ ix0 c10 (ix1 e)
  have d10e : IntOp.cmpi .slt (x10 (ix1 e)) (BitVec.ofNat 32 847) = 1#1 := Host.reduce_andi_all _ _ _ _ ix0 d10 (ix1 e)
  have c11e : IntOp.cmpi .sge (x11 (ix1 e)) (0#32) = 1#1 := Host.reduce_andi_all _ _ _ _ ix0 c11 (ix1 e)
  have d11e : IntOp.cmpi .slt (x11 (ix1 e)) (BitVec.ofNat 32 4762) = 1#1 := Host.reduce_andi_all _ _ _ _ ix0 d11 (ix1 e)
  exact ⟨word_in_range _ 4762 (by decide) c8e d8e, word_in_range _ 847 (by decide) c9e d9e,
    word_in_range _ 847 (by decide) c10e d10e, word_in_range _ 4762 (by decide) c11e d11e⟩

end Cert.Rgcn.Pre

end
-- ==== Proof.Spec.lean ====
/-
  The mathematics of the two programs, stated once over plain index functions on the extended reals.

  A relation of the graph has 200000 edges; edge `e` carries a source word and a destination word. One graph
  convolution aggregates, at destination row `i` and feature `k`, the source features of the edges that end at
  `i` (`aggSpec`); the kernel's program reaches the same array as the product of the edge-count matrix
  (`countSpec`: entry `(i, s)` counts the edges whose combined word is `i · NS + s`) with the feature table
  (`matAgg`). Both programs then scale row `i` by the destination norm, multiply by the weight matrix, add the
  bias and clamp at zero (`convSpec`), and score a decoder edge by the two halves of the projection vector
  against the rows its two start words name, plus the scalar bias (`decodeSpec`).
-/
import Idealize.ShloMosaic.Lib.ValueIdx
import Idealize.ShloMosaic.PureOps.Ideal

noncomputable section

namespace Cert.Rgcn

open Idealize.ShloMosaic Idealize.ShloMosaic.ValueIdx

/-- Indices of a vector of length `n` and of an `n × m` rectangle. -/
abbrev I1 (n : Nat) := (⟨1, ![n]⟩ : Shape).Idx
abbrev I2 (n m : Nat) := (⟨2, ![n, m]⟩ : Shape).Idx

/-- The number of edges of every relation. -/
abbrev NE : Nat := 200000

/-- The row of an `N`-row table that a start word names: the word read signed, clamped into `[0, N − 1]`. -/
def rowOf (N : Nat) (hN : 0 < N) (w : BitVec 32) : Fin N := ⟨min w.toInt.toNat (N - 1), by omega⟩

/-- Messages summed at their destinations: entry `(i, k)` is the sum, over the edges whose destination word is
    `i`, of feature `k` of the row the edge's source start word names. -/
def aggSpec (NS ND : Nat) (hNS : 0 < NS) (feat : I2 NS 256 → EReal) (dstIdx srcIdx : I2 NE 1 → BitVec 32) :
    I2 ND 256 → EReal :=
  fun j => ∑ e ∈ Finset.univ.filter (fun e : Fin NE => (dstIdx (ix2 e 0)).toInt = ((j 0).val : ℤ)),
    feat (ix2 (rowOf NS hNS (srcIdx (ix2 e 0))) (j 1))

/-- The edge-count matrix: entry `(i, s)` is the number of edges whose combined word is `i · NS + s`. -/
def countSpec (NS ND : Nat) (combIdx : I2 NE 1 → BitVec 32) : I2 ND NS → EReal :=
  fun j => ∑ _e ∈ Finset.univ.filter (fun e : Fin NE => (combIdx (ix2 e 0)).toInt = (((j 0).val * NS + (j 1).val : ℕ) : ℤ)),
    (1 : EReal)

/-- A count matrix times a feature table. -/
def matAgg (NS ND : Nat) (C : I2 ND NS → EReal) (feat : I2 NS 256 → EReal) : I2 ND 256 → EReal :=
  fun j => ∑ s : Fin NS, C (ix2 (j 0) s) * feat (ix2 s (j 1))

/-- The rest of a convolution: rows scaled by the destination norm, times the weights, plus the bias, clamped at zero. -/
def convSpec (ND : Nat) (agg : I2 ND 256 → EReal) (nd : Fin ND → EReal) (W : I2 256 256 → EReal) (b : Fin 256 → EReal) :
    I2 ND 256 → EReal :=
  fun j => max ((∑ q : Fin 256, (agg (ix2 (j 0) q) * nd (j 0)) * W (ix2 q (j 1))) + b (j 1)) 0

/-- The decoder's score of edge `e`: the gene row its first start word names against the first half of the
    projection, the cell row its second start word names against the second half, plus the bias. -/
def decodeSpec (hg : I2 4762 256 → EReal) (hc : I2 847 256 → EReal) (Wp : I2 512 1 → EReal) (bp : EReal)
    (iA iB : I2 NE 1 → BitVec 32) : I2 NE 1 → EReal :=
  fun j => ((∑ q : Fin 256, hg (ix2 (rowOf 4762 (by decide) (iA (ix2 (j 0) 0))) q) * Wp (ix2 ⟨q.val, by omega⟩ 0))
      + (∑ q : Fin 256, hc (ix2 (rowOf 847 (by decide) (iB (ix2 (j 0) 0))) q) * Wp (ix2 ⟨256 + q.val, by omega⟩ 0))) + bp

end Cert.Rgcn

end
-- ==== Proof.KernelPay.lean ====
/-
  The two kernel bodies, read as the specification's index functions.

  A body takes the edge-count matrix, the source feature table, the destination norm as a column, the weight
  matrix and the bias as a row. Its first matrix product, into a zero accumulator, is `matAgg` of the count
  matrix and the features; the column of norms broadcast along the rows, the change of float format (the
  identity on exact values), the second matrix product into a zero accumulator, the bias row broadcast down
  the columns and the maximum with zero are `convSpec`.
-/
import proofs.«424038_j7739531067737_3_alg».proof.Proof.Gen.KernelIdeal.Skeleton
import proofs.«424038_j7739531067737_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.Ker

open Cert.KernelIdeal Cert.KernelIdeal.Gen Idealize.ShloMosaic Idealize.ShloMosaic.TcCoe Idealize.SL.Sem
open Idealize.ShloMosaic.ValueIdx Cert.Rgcn

/-! ### A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The first matrix product of the cell kernel: `[847, 4762] · [4762, 256]` -/

theorem lhs_cellA_0 (i : S847x256.Idx) (q : dot_S847x4762_S4762x256_S847x256_1_0_0_1_n_n.contr.Idx) :
    (dot_S847x4762_S4762x256_S847x256_1_0_0_1_n_n.lhsIdx i q 0).val = (i 0).val := by
  unfold DotDims.lhsIdx
  rw [dif_neg (show ¬(0 : Fin S847x4762.rank) ∈ dot_S847x4762_S4762x256_S847x256_1_0_0_1_n_n.lhsBatch by decide), dif_pos (show (0 : Fin S847x4762.rank) ∈ dot_S847x4762_S4762x256_S847x256_1_0_0_1_n_n.lhsNonContracting by decide)]
  rfl
theorem lhs_cellA_1 (i : S847x256.Idx) (q : dot_S847x4762_S4762x256_S847x256_1_0_0_1_n_n.contr.Idx) :
    (dot_S847x4762_S4762x256_S847x256_1_0_0_1_n_n.lhsIdx i q 1).val = (q ⟨0, by decide⟩).val :=
  dot_S847x4762_S4762x256_S847x256_1_0_0_1_n_n.lhsIdx_val_of_single rfl i q
theorem rhs_cellA_0 (i : S847x256.Idx) (q : dot_S847x4762_S4762x256_S847x256_1_0_0_1_n_n.contr.Idx) :
    (dot_S847x4762_S4762x256_S847x256_1_0_0_1_n_n.rhsIdx i q 0).val = (q ⟨0, by decide⟩).val :=
  dot_S847x4762_S4762x256_S847x256_1_0_0_1_n_n.rhsIdx_val_of_single rfl i q
theorem rhs_cellA_1 (i : S847x256.Idx) (q : dot_S847x4762_S4762x256_S847x256_1_0_0_1_n_n.contr.Idx) :
    (dot_S847x4762_S4762x256_S847x256_1_0_0_1_n_n.rhsIdx i q 1).val = (i 1).val := by
  unfold DotDims.rhsIdx
  rw [dif_neg (show ¬(1 : Fin S4762x256.rank) ∈ dot_S847x4762_S4762x256_S847x256_1_0_0_1_n_n.rhsBatch by decide), dif_pos (show (1 : Fin S4762x256.rank) ∈ dot_S847x4762_S4762x256_S847x256_1_0_0_1_n_n.rhsNonContracting by decide)]
  rfl

/-- The product into a zero accumulator, read at `(p, c)`: the row `p` of the left factor against the column `c` of the right. -/
theorem matmul_cellA_apply (x : FVec Ideal S847x4762 .bf16) (y : FVec Ideal S4762x256 .bf16) (p : Fin 847) (c : Fin 256) :
    FloatOps.matmul dot_S847x4762_S4762x256_S847x256_1_0_0_1_n_n none x y (constant (F := Ideal) S847x256 .f32 0x00000000#32) (ix2 p c)
      = ∑ s : Fin 4762, x (ix2 p s) * y (ix2 s c) := by
  rw [Ideal.matmul_constant_zero_apply, ← Equiv.sum_comp (ValueIdx.contrEquiv1 dot_S847x4762_S4762x256_S847x256_1_0_0_1_n_n 4762 rfl rfl).symm]
  refine Finset.sum_congr rfl fun k _ => ?_
  have hk := ValueIdx.contrEquiv1_symm_val dot_S847x4762_S4762x256_S847x256_1_0_0_1_n_n 4762 rfl rfl k
  have el : dot_S847x4762_S4762x256_S847x256_1_0_0_1_n_n.lhsIdx (ix2 p c) ((ValueIdx.contrEquiv1 dot_S847x4762_S4762x256_S847x256_1_0_0_1_n_n 4762 rfl rfl).symm k) = ix2 p k := funext fun a => Fin.ext (by
    match a with
    | ⟨0, _⟩ => exact lhs_cellA_0 _ _
    | ⟨1, _⟩ => exact (lhs_cellA_1 _ _).trans hk)
  have er : dot_S847x4762_S4762x256_S847x256_1_0_0_1_n_n.rhsIdx (ix2 p c) ((ValueIdx.contrEquiv1 dot_S847x4762_S4762x256_S847x256_1_0_0_1_n_n 4762 rfl rfl).symm k) = ix2 k c := funext fun a => Fin.ext (by
    match a with
    | ⟨0, _⟩ => exact (rhs_cellA_0 _ _).trans hk
    | ⟨1, _⟩ => exact rhs_cellA_1 _ _)
  rw [el, er]

/-! ### The second matrix product of the cell kernel: `[847, 256] · [256, 256]` -/

theorem lhs_cellB_0 (i : S847x256.Idx) (q : dot_S847x256_S256x256_S847x256_1_0_0_1_n_n.contr.Idx) :
    (dot_S847x256_S256x256_S847x256_1_0_0_1_n_n.lhsIdx i q 0).val = (i 0).val := by
  unfold DotDims.lhsIdx
  rw [dif_neg (show ¬(0 : Fin S847x256.rank) ∈ dot_S847x256_S256x256_S847x256_1_0_0_1_n_n.lhsBatch by decide), dif_pos (show (0 : Fin S847x256.rank) ∈ dot_S847x256_S256x256_S847x256_1_0_0_1_n_n.lhsNonContracting by decide)]
  rfl
theorem lhs_cellB_1 (i : S847x256.Idx) (q : dot_S847x256_S256x256_S847x256_1_0_0_1_n_n.contr.Idx) :
    (dot_S847x256_S256x256_S847x256_1_0_0_1_n_n.lhsIdx i q 1).val = (q ⟨0, by decide⟩).val :=
  dot_S847x256_S256x256_S847x256_1_0_0_1_n_n.lhsIdx_val_of_single rfl i q
theorem rhs_cellB_0 (i : S847x256.Idx) (q : dot_S847x256_S256x256_S847x256_1_0_0_1_n_n.contr.Idx) :
    (dot_S847x256_S256x256_S847x256_1_0_0_1_n_n.rhsIdx i q 0).val = (q ⟨0, by decide⟩).val :=
  dot_S847x256_S256x256_S847x256_1_0_0_1_n_n.rhsIdx_val_of_single rfl i q
theorem rhs_cellB_1 (i : S847x256.Idx) (q : dot_S847x256_S256x256_S847x256_1_0_0_1_n_n.contr.Idx) :
    (dot_S847x256_S256x256_S847x256_1_0_0_1_n_n.rhsIdx i q 1).val = (i 1).val := by
  unfold DotDims.rhsIdx
  rw [dif_neg (show ¬(1 : Fin S256x256.rank) ∈ dot_S847x256_S256x256_S847x256_1_0_0_1_n_n.rhsBatch by decide), dif_pos (show (1 : Fin S256x256.rank) ∈ dot_S847x256_S256x256_S847x256_1_0_0_1_n_n.rhsNonContracting by decide)]
  rfl

/-- The product into a zero accumulator, read at `(p, c)`: the row `p` of the left factor against the column `c` of the right. -/
theorem matmul_cellB_apply (x : FVec Ideal S847x256 .bf16) (y : FVec Ideal S256x256 .bf16) (p : Fin 847) (c : Fin 256) :
    FloatOps.matmul dot_S847x256_S256x256_S847x256_1_0_0_1_n_n none x y (constant (F := Ideal) S847x256 .f32 0x00000000#32) (ix2 p c)
      = ∑ s : Fin 256, x (ix2 p s) * y (ix2 s c) := by
  rw [Ideal.matmul_constant_zero_apply, ← Equiv.sum_comp (ValueIdx.contrEquiv1 dot_S847x256_S256x256_S847x256_1_0_0_1_n_n 256 rfl rfl).symm]
  refine Finset.sum_congr rfl fun k _ => ?_
  have hk := ValueIdx.contrEquiv1_symm_val dot_S847x256_S256x256_S847x256_1_0_0_1_n_n 256 rfl rfl k
  have el : dot_S847x256_S256x256_S847x256_1_0_0_1_n_n.lhsIdx (ix2 p c) ((ValueIdx.contrEquiv1 dot_S847x256_S256x256_S847x256_1_0_0_1_n_n 256 rfl rfl).symm k) = ix2 p k := funext fun a => Fin.ext (by
    match a with
    | ⟨0, _⟩ => exact lhs_cellB_0 _ _
    | ⟨1, _⟩ => exact (lhs_cellB_1 _ _).trans hk)
  have er : dot_S847x256_S256x256_S847x256_1_0_0_1_n_n.rhsIdx (ix2 p c) ((ValueIdx.contrEquiv1 dot_S847x256_S256x256_S847x256_1_0_0_1_n_n 256 rfl rfl).symm k) = ix2 k c := funext fun a => Fin.ext (by
    match a with
    | ⟨0, _⟩ => exact (rhs_cellB_0 _ _).trans hk
    | ⟨1, _⟩ => exact rhs_cellB_1 _ _)
  rw [el, er]

/-- The cell kernel's stored block. -/
theorem pay_cell (C : Vec Ideal S847x4762 .bf16) (Ft : Vec Ideal S4762x256 .bf16) (nd : Vec Ideal S847x1 .f32)
    (W : Vec Ideal S256x256 .bf16) (b : Vec Ideal S1x256 .f32) :
    k0_pay1 (F := Ideal) C Ft nd W b
      = convSpec 847 (matAgg 4762 847 C Ft) (fun i => nd (ix2 i 0)) W (fun k => b (ix2 0 k)) := by
  funext j
  obtain ⟨p, q, rfl⟩ : ∃ (p : Fin 847) (q : Fin 256), j = ix2 p q := ⟨j 0, j 1, eq_ix2 j⟩
  unfold k0_pay1
  simp only [shapeCast_self]
  -- the maximum, the sum and the zero are pointwise
  show max (FloatOps.matmul dot_S847x256_S256x256_S847x256_1_0_0_1_n_n none
          (truncf FTy.bf16
            (mulf (matmul dot_S847x4762_S4762x256_S847x256_1_0_0_1_n_n none C Ft (constant (F := Ideal) S847x256 FTy.f32 0x00000000#32))
              (broadcastTo S847x256 nd broadcasts_S847x1_S847x256))
            bitsLt_bf16_f32)
          W (constant (F := Ideal) S847x256 FTy.f32 0x00000000#32) (ix2 p q)
        + broadcastTo S847x256 b broadcasts_S1x256_S847x256 (ix2 p q)) (Ideal.ofBits .f32 0x00000000#32)
      = max ((∑ s : Fin 256, (matAgg 4762 847 C Ft (ix2 p s) * nd (ix2 p 0)) * W (ix2 s q)) + b (ix2 0 q)) 0
  rw [Ideal.ofBits_zero_f32]
  refine congrArg₂ max (congrArg₂ (· + ·) ?_ ?_) rfl
  · -- the second product, whose left factor is the first product scaled by the column of norms
    refine (matmul_cellB_apply _ _ p q).trans ?_
    refine Finset.sum_congr rfl fun s _ => ?_
    refine congrArg₂ (· * ·) ?_ rfl
    show FloatOps.matmul dot_S847x4762_S4762x256_S847x256_1_0_0_1_n_n none C Ft (constant (F := Ideal) S847x256 FTy.f32 0x00000000#32) (ix2 p s)
        * broadcastTo S847x256 nd broadcasts_S847x1_S847x256 (ix2 p s)
      = (∑ t : Fin 4762, C (ix2 p t) * Ft (ix2 t s)) * nd (ix2 p 0)
    exact congrArg₂ (· * ·) (matmul_cellA_apply C Ft p s) (broadcastTo_a1_ab_apply nd broadcasts_S847x1_S847x256 p s)
  · -- the bias row broadcast down the columns
    exact broadcastTo_1b_ab_apply b broadcasts_S1x256_S847x256 p q

/-! ### The first matrix product of the gene kernel: `[4762, 847] · [847, 256]` -/

theorem lhs_geneA_0 (i : S4762x256.Idx) (q : dot_S4762x847_S847x256_S4762x256_1_0_0_1_n_n.contr.Idx) :
    (dot_S4762x847_S847x256_S4762x256_1_0_0_1_n_n.lhsIdx i q 0).val = (i 0).val := by
  unfold DotDims.lhsIdx
  rw [dif_neg (show ¬(0 : Fin S4762x847.rank) ∈ dot_S4762x847_S847x256_S4762x256_1_0_0_1_n_n.lhsBatch by decide), dif_pos (show (0 : Fin S4762x847.rank) ∈ dot_S4762x847_S847x256_S4762x256_1_0_0_1_n_n.lhsNonContracting by decide)]
  rfl
theorem lhs_geneA_1 (i : S4762x256.Idx) (q : dot_S4762x847_S847x256_S4762x256_1_0_0_1_n_n.contr.Idx) :
    (dot_S4762x847_S847x256_S4762x256_1_0_0_1_n_n.lhsIdx i q 1).val = (q ⟨0, by decide⟩).val :=
  dot_S4762x847_S847x256_S4762x256_1_0_0_1_n_n.lhsIdx_val_of_single rfl i q
theorem rhs_geneA_0 (i : S4762x256.Idx) (q : dot_S4762x847_S847x256_S4762x256_1_0_0_1_n_n.contr.Idx) :
    (dot_S4762x847_S847x256_S4762x256_1_0_0_1_n_n.rhsIdx i q 0).val = (q ⟨0, by decide⟩).val :=
  dot_S4762x847_S847x256_S4762x256_1_0_0_1_n_n.rhsIdx_val_of_single rfl i q
theorem rhs_geneA_1 (i : S4762x256.Idx) (q : dot_S4762x847_S847x256_S4762x256_1_0_0_1_n_n.contr.Idx) :
    (dot_S4762x847_S847x256_S4762x256_1_0_0_1_n_n.rhsIdx i q 1).val = (i 1).val := by
  unfold DotDims.rhsIdx
  rw [dif_neg (show ¬(1 : Fin S847x256.rank) ∈ dot_S4762x847_S847x256_S4762x256_1_0_0_1_n_n.rhsBatch by decide), dif_pos (show (1 : Fin S847x256.rank) ∈ dot_S4762x847_S847x256_S4762x256_1_0_0_1_n_n.rhsNonContracting by decide)]
  rfl

/-- The product into a zero accumulator, read at `(p, c)`: the row `p` of the left factor against the column `c` of the right. -/
theorem matmul_geneA_apply (x : FVec Ideal S4762x847 .bf16) (y : FVec Ideal S847x256 .bf16) (p : Fin 4762) (c : Fin 256) :
    FloatOps.matmul dot_S4762x847_S847x256_S4762x256_1_0_0_1_n_n none x y (constant (F := Ideal) S4762x256 .f32 0x00000000#32) (ix2 p c)
      = ∑ s : Fin 847, x (ix2 p s) * y (ix2 s c) := by
  rw [Ideal.matmul_constant_zero_apply, ← Equiv.sum_comp (ValueIdx.contrEquiv1 dot_S4762x847_S847x256_S4762x256_1_0_0_1_n_n 847 rfl rfl).symm]
  refine Finset.sum_congr rfl fun k _ => ?_
  have hk := ValueIdx.contrEquiv1_symm_val dot_S4762x847_S847x256_S4762x256_1_0_0_1_n_n 847 rfl rfl k
  have el : dot_S4762x847_S847x256_S4762x256_1_0_0_1_n_n.lhsIdx (ix2 p c) ((ValueIdx.contrEquiv1 dot_S4762x847_S847x256_S4762x256_1_0_0_1_n_n 847 rfl rfl).symm k) = ix2 p k := funext fun a => Fin.ext (by
    match a with
    | ⟨0, _⟩ => exact lhs_geneA_0 _ _
    | ⟨1, _⟩ => exact (lhs_geneA_1 _ _).trans hk)
  have er : dot_S4762x847_S847x256_S4762x256_1_0_0_1_n_n.rhsIdx (ix2 p c) ((ValueIdx.contrEquiv1 dot_S4762x847_S847x256_S4762x256_1_0_0_1_n_n 847 rfl rfl).symm k) = ix2 k c := funext fun a => Fin.ext (by
    match a with
    | ⟨0, _⟩ => exact (rhs_geneA_0 _ _).trans hk
    | ⟨1, _⟩ => exact rhs_geneA_1 _ _)
  rw [el, er]

/-! ### The second matrix product of the gene kernel: `[4762, 256] · [256, 256]` -/

theorem lhs_geneB_0 (i : S4762x256.Idx) (q : dot_S4762x256_S256x256_S4762x256_1_0_0_1_n_n.contr.Idx) :
    (dot_S4762x256_S256x256_S4762x256_1_0_0_1_n_n.lhsIdx i q 0).val = (i 0).val := by
  unfold DotDims.lhsIdx
  rw [dif_neg (show ¬(0 : Fin S4762x256.rank) ∈ dot_S4762x256_S256x256_S4762x256_1_0_0_1_n_n.lhsBatch by decide), dif_pos (show (0 : Fin S4762x256.rank) ∈ dot_S4762x256_S256x256_S4762x256_1_0_0_1_n_n.lhsNonContracting by decide)]
  rfl
theorem lhs_geneB_1 (i : S4762x256.Idx) (q : dot_S4762x256_S256x256_S4762x256_1_0_0_1_n_n.contr.Idx) :
    (dot_S4762x256_S256x256_S4762x256_1_0_0_1_n_n.lhsIdx i q 1).val = (q ⟨0, by decide⟩).val :=
  dot_S4762x256_S256x256_S4762x256_1_0_0_1_n_n.lhsIdx_val_of_single rfl i q
theorem rhs_geneB_0 (i : S4762x256.Idx) (q : dot_S4762x256_S256x256_S4762x256_1_0_0_1_n_n.contr.Idx) :
    (dot_S4762x256_S256x256_S4762x256_1_0_0_1_n_n.rhsIdx i q 0).val = (q ⟨0, by decide⟩).val :=
  dot_S4762x256_S256x256_S4762x256_1_0_0_1_n_n.rhsIdx_val_of_single rfl i q
theorem rhs_geneB_1 (i : S4762x256.Idx) (q : dot_S4762x256_S256x256_S4762x256_1_0_0_1_n_n.contr.Idx) :
    (dot_S4762x256_S256x256_S4762x256_1_0_0_1_n_n.rhsIdx i q 1).val = (i 1).val := by
  unfold DotDims.rhsIdx
  rw [dif_neg (show ¬(1 : Fin S256x256.rank) ∈ dot_S4762x256_S256x256_S4762x256_1_0_0_1_n_n.rhsBatch by decide), dif_pos (show (1 : Fin S256x256.rank) ∈ dot_S4762x256_S256x256_S4762x256_1_0_0_1_n_n.rhsNonContracting by decide)]
  rfl

/-- The product into a zero accumulator, read at `(p, c)`: the row `p` of the left factor against the column `c` of the right. -/
theorem matmul_geneB_apply (x : FVec Ideal S4762x256 .bf16) (y : FVec Ideal S256x256 .bf16) (p : Fin 4762) (c : Fin 256) :
    FloatOps.matmul dot_S4762x256_S256x256_S4762x256_1_0_0_1_n_n none x y (constant (F := Ideal) S4762x256 .f32 0x00000000#32) (ix2 p c)
      = ∑ s : Fin 256, x (ix2 p s) * y (ix2 s c) := by
  rw [Ideal.matmul_constant_zero_apply, ← Equiv.sum_comp (ValueIdx.contrEquiv1 dot_S4762x256_S256x256_S4762x256_1_0_0_1_n_n 256 rfl rfl).symm]
  refine Finset.sum_congr rfl fun k _ => ?_
  have hk := ValueIdx.contrEquiv1_symm_val dot_S4762x256_S256x256_S4762x256_1_0_0_1_n_n 256 rfl rfl k
  have el : dot_S4762x256_S256x256_S4762x256_1_0_0_1_n_n.lhsIdx (ix2 p c) ((ValueIdx.contrEquiv1 dot_S4762x256_S256x256_S4762x256_1_0_0_1_n_n 256 rfl rfl).symm k) = ix2 p k := funext fun a => Fin.ext (by
    match a with
    | ⟨0, _⟩ => exact lhs_geneB_0 _ _
    | ⟨1, _⟩ => exact (lhs_geneB_1 _ _).trans hk)
  have er : dot_S4762x256_S256x256_S4762x256_1_0_0_1_n_n.rhsIdx (ix2 p c) ((ValueIdx.contrEquiv1 dot_S4762x256_S256x256_S4762x256_1_0_0_1_n_n 256 rfl rfl).symm k) = ix2 k c := funext fun a => Fin.ext (by
    match a with
    | ⟨0, _⟩ => exact (rhs_geneB_0 _ _).trans hk
    | ⟨1, _⟩ => exact rhs_geneB_1 _ _)
  rw [el, er]

/-- The gene kernel's stored block. -/
theorem pay_gene (C : Vec Ideal S4762x847 .bf16) (Ft : Vec Ideal S847x256 .bf16) (nd : Vec Ideal S4762x1 .f32)
    (W : Vec Ideal S256x256 .bf16) (b : Vec Ideal S1x256 .f32) :
    k1_pay1 (F := Ideal) C Ft nd W b
      = convSpec 4762 (matAgg 847 4762 C Ft) (fun i => nd (ix2 i 0)) W (fun k => b (ix2 0 k)) := by
  funext j
  obtain ⟨p, q, rfl⟩ : ∃ (p : Fin 4762) (q : Fin 256), j = ix2 p q := ⟨j 0, j 1, eq_ix2 j⟩
  unfold k1_pay1
  simp only [shapeCast_self]
  -- the maximum, the sum and the zero are pointwise
  show max (FloatOps.matmul dot_S4762x256_S256x256_S4762x256_1_0_0_1_n_n none
          (truncf FTy.bf16
            (mulf (matmul dot_S4762x847_S847x256_S4762x256_1_0_0_1_n_n none C Ft (constant (F := Ideal) S4762x256 FTy.f32 0x00000000#32))
              (broadcastTo S4762x256 nd broadcasts_S4762x1_S4762x256))
            bitsLt_bf16_f32)
          W (constant (F := Ideal) S4762x256 FTy.f32 0x00000000#32) (ix2 p q)
        + broadcastTo S4762x256 b broadcasts_S1x256_S4762x256 (ix2 p q)) (Ideal.ofBits .f32 0x00000000#32)
      = max ((∑ s : Fin 256, (matAgg 847 4762 C Ft (ix2 p s) * nd (ix2 p 0)) * W (ix2 s q)) + b (ix2 0 q)) 0
  rw [Ideal.ofBits_zero_f32]
  refine congrArg₂ max (congrArg₂ (· + ·) ?_ ?_) rfl
  · -- the second product, whose left factor is the first product scaled by the column of norms
    refine (matmul_geneB_apply _ _ p q).trans ?_
    refine Finset.sum_congr rfl fun s _ => ?_
    refine congrArg₂ (· * ·) ?_ rfl
    show FloatOps.matmul dot_S4762x847_S847x256_S4762x256_1_0_0_1_n_n none C Ft (constant (F := Ideal) S4762x256 FTy.f32 0x00000000#32) (ix2 p s)
        * broadcastTo S4762x256 nd broadcasts_S4762x1_S4762x256 (ix2 p s)
      = (∑ t : Fin 847, C (ix2 p t) * Ft (ix2 t s)) * nd (ix2 p 0)
    exact congrArg₂ (· * ·) (matmul_geneA_apply C Ft p s) (broadcastTo_a1_ab_apply nd broadcasts_S4762x1_S4762x256 p s)
  · -- the bias row broadcast down the columns
    exact broadcastTo_1b_ab_apply b broadcasts_S1x256_S4762x256 p q

end Cert.Rgcn.Ker

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.KernelHost.lean ====
/-
  The kernel program's host operations around its two kernels, read as the specification's index functions.

  The edge-count matrix is an accumulating scatter of ones into a zero vector of length ND · NS at the combined
  words, reshaped to ND × NS: entry `(i, s)` is element `i · NS + s` of the vector, the number of edges whose
  combined word is that number (`countSpec`). The decoder multiplies each node table into its half of the
  projection vector first, then looks the two resulting columns up at the edges' start words, adds them and
  adds the bias: `decodeSpec`.
-/
import proofs.«424038_j7739531067737_3_alg».proof.Proof.Gen.KernelIdeal
import proofs.«424038_j7739531067737_3_alg».proof.Proof.Spec
import proofs.«424038_j7739531067737_3_alg».proof.Proof.LibIndexed
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Rgcn.Ker

open Cert.KernelIdeal Cert.KernelIdeal.Gen Idealize.ShloMosaic Idealize.ShloMosaic.TcCoe Idealize.SL.Sem
open Idealize.ShloMosaic.ValueIdx Cert.Rgcn

/-- The gene-to-cell count matrix (847 destinations × 4762 sources). -/
theorem count_cell (combIdx : IVec S200000x1 32) :
    shapeCast S847x4762 (Host.scatterAdd (F := Ideal) scatter_S4033414_S200000x1_S200000_n_0_0_1
        (broadcastInDim S4033414 ![] bcast_S_S4033414 (constant S_ .f32 0x00000000#32)) combIdx
        (broadcastInDim S200000 ![] bcast_S_S200000 (constant S_ .f32 0x3F800000#32))) shapeCasts_S4033414_S847x4762
      = countSpec 4762 847 combIdx := by
  funext j
  obtain ⟨i, s, rfl⟩ : ∃ (i : Fin 847) (s : Fin 4762), j = ix2 i s := ⟨j 0, j 1, eq_ix2 j⟩
  have hi : i.val < 847 := i.isLt
  have hs : s.val < 4762 := s.isLt
  have hlt : i.val * 4762 + s.val < 4033414 := by omega
  -- the reshape reads the vector at the row-major position
  rw [shapeCast_apply _ _ (ix2 i s) (ix1 ⟨i.val * 4762 + s.val, hlt⟩)
    (by rw [Shape.rowMajor_val_one, Shape.rowMajor_val_two]; rfl)]
  -- the accumulating scatter there: the operand plus the updates whose word names the position
  rw [Lib.scatterAdd_vec_apply scatter_S4033414_S200000x1_S200000_n_0_0_1 scatter_S4033414_S200000x1_S200000_n_0_0_1_wf rfl]
  -- the operand is the zero splat, every update is one
  have hz : broadcastInDim S4033414 ![] bcast_S_S4033414 (constant (F := Ideal) S_ .f32 0x00000000#32) (ix1 ⟨i.val * 4762 + s.val, hlt⟩) = 0 := by
    rw [broadcastInDim_apply _ _ _ _ ix0 (fun a => a.elim0), constant_apply, Ideal.ofBits_zero_f32]
  have ho : ∀ e : Fin 200000, broadcastInDim S200000 ![] bcast_S_S200000 (constant (F := Ideal) S_ .f32 0x3F800000#32) (ix1 e) = 1 := by
    intro e
    rw [broadcastInDim_apply _ _ _ _ ix0 (fun a => a.elim0), constant_apply, Ideal.ofBits_one_f32]
  rw [hz, zero_add]
  unfold countSpec
  exact Finset.sum_congr rfl (fun e _ => ho e)

/-- The cell-to-gene count matrix (4762 destinations × 847 sources). -/
theorem count_gene (combIdx : IVec S200000x1 32) :
    shapeCast S4762x847 (Host.scatterAdd (F := Ideal) scatter_S4033414_S200000x1_S200000_n_0_0_1
        (broadcastInDim S4033414 ![] bcast_S_S4033414 (constant S_ .f32 0x00000000#32)) combIdx
        (broadcastInDim S200000 ![] bcast_S_S200000 (constant S_ .f32 0x3F800000#32))) shapeCasts_S4033414_S4762x847
      = countSpec 847 4762 combIdx := by
  funext j
  obtain ⟨i, s, rfl⟩ : ∃ (i : Fin 4762) (s : Fin 847), j = ix2 i s := ⟨j 0, j 1, eq_ix2 j⟩
  have hi : i.val < 4762 := i.isLt
  have hs : s.val < 847 := s.isLt
  have hlt : i.val * 847 + s.val < 4033414 := by omega
  -- the reshape reads the vector at the row-major position
  rw [shapeCast_apply _ _ (ix2 i s) (ix1 ⟨i.val * 847 + s.val, hlt⟩)
    (by rw [Shape.rowMajor_val_one, Shape.rowMajor_val_two]; rfl)]
  -- the accumulating scatter there: the operand plus the updates whose word names the position
  rw [Lib.scatterAdd_vec_apply scatter_S4033414_S200000x1_S200000_n_0_0_1 scatter_S4033414_S200000x1_S200000_n_0_0_1_wf rfl]
  -- the operand is the zero splat, every update is one
  have hz : broadcastInDim S4033414 ![] bcast_S_S4033414 (constant (F := Ideal) S_ .f32 0x00000000#32) (ix1 ⟨i.val * 847 + s.val, hlt⟩) = 0 := by
    rw [broadcastInDim_apply _ _ _ _ ix0 (fun a => a.elim0), constant_apply, Ideal.ofBits_zero_f32]
  have ho : ∀ e : Fin 200000, broadcastInDim S200000 ![] bcast_S_S200000 (constant (F := Ideal) S_ .f32 0x3F800000#32) (ix1 e) = 1 := by
    intro e
    rw [broadcastInDim_apply _ _ _ _ ix0 (fun a => a.elim0), constant_apply, Ideal.ofBits_one_f32]
  rw [hz, zero_add]
  unfold countSpec
  exact Finset.sum_congr rfl (fun e _ => ho e)

/-- The operand indices of the [4762, 256] × [256, 1] product at output index `i` and contraction index `q`, axis by axis. -/
theorem lhs_gene_0 (i : S4762x1.Idx) (q : dot_S4762x256_S256x1_S4762x1_1_0_0_1_n_n.contr.Idx) :
    (dot_S4762x256_S256x1_S4762x1_1_0_0_1_n_n.lhsIdx i q 0).val = (i 0).val := by
  unfold DotDims.lhsIdx
  rw [dif_neg (show ¬(0 : Fin S4762x256.rank) ∈ dot_S4762x256_S256x1_S4762x1_1_0_0_1_n_n.lhsBatch by decide), dif_pos (show (0 : Fin S4762x256.rank) ∈ dot_S4762x256_S256x1_S4762x1_1_0_0_1_n_n.lhsNonContracting by decide)]
  rfl
theorem lhs_gene_1 (i : S4762x1.Idx) (q : dot_S4762x256_S256x1_S4762x1_1_0_0_1_n_n.contr.Idx) :
    (dot_S4762x256_S256x1_S4762x1_1_0_0_1_n_n.lhsIdx i q 1).val = (q ⟨0, by decide⟩).val :=
  dot_S4762x256_S256x1_S4762x1_1_0_0_1_n_n.lhsIdx_val_of_single rfl i q
theorem rhs_gene_0 (i : S4762x1.Idx) (q : dot_S4762x256_S256x1_S4762x1_1_0_0_1_n_n.contr.Idx) :
    (dot_S4762x256_S256x1_S4762x1_1_0_0_1_n_n.rhsIdx i q 0).val = (q ⟨0, by decide⟩).val :=
  dot_S4762x256_S256x1_S4762x1_1_0_0_1_n_n.rhsIdx_val_of_single rfl i q
theorem rhs_gene_1 (i : S4762x1.Idx) (q : dot_S4762x256_S256x1_S4762x1_1_0_0_1_n_n.contr.Idx) :
    (dot_S4762x256_S256x1_S4762x1_1_0_0_1_n_n.rhsIdx i q 1).val = (i 1).val := by
  unfold DotDims.rhsIdx
  rw [dif_neg (show ¬(1 : Fin S256x1.rank) ∈ dot_S4762x256_S256x1_S4762x1_1_0_0_1_n_n.rhsBatch by decide), dif_pos (show (1 : Fin S256x1.rank) ∈ dot_S4762x256_S256x1_S4762x1_1_0_0_1_n_n.rhsNonContracting by decide)]
  rfl

/-- A [4762, 256] table times a [256, 1] column, read at `(n, 0)`: the sum over the 256 features. -/
theorem dot_gene_apply (h : FVec Ideal S4762x256 .f32) (v : FVec Ideal S256x1 .f32) (n : Fin 4762) :
    Host.dotGeneral (F := Ideal) dot_S4762x256_S256x1_S4762x1_1_0_0_1_n_n none h v (ix2 n (0 : Fin 1)) = ∑ q : Fin 256, h (ix2 n q) * v (ix2 q (0 : Fin 1)) := by
  simp only [Host.dotGeneral]
  rw [Ideal.dotGeneral_apply, ← Equiv.sum_comp (ValueIdx.contrEquiv1 dot_S4762x256_S256x1_S4762x1_1_0_0_1_n_n 256 rfl rfl).symm]
  refine Finset.sum_congr rfl fun k _ => ?_
  have hk := ValueIdx.contrEquiv1_symm_val dot_S4762x256_S256x1_S4762x1_1_0_0_1_n_n 256 rfl rfl k
  have el : dot_S4762x256_S256x1_S4762x1_1_0_0_1_n_n.lhsIdx (ix2 n (0 : Fin 1)) ((ValueIdx.contrEquiv1 dot_S4762x256_S256x1_S4762x1_1_0_0_1_n_n 256 rfl rfl).symm k) = ix2 n k := funext fun a => Fin.ext (by
    match a with
    | ⟨0, _⟩ => exact lhs_gene_0 _ _
    | ⟨1, _⟩ => exact (lhs_gene_1 _ _).trans hk)
  have er : dot_S4762x256_S256x1_S4762x1_1_0_0_1_n_n.rhsIdx (ix2 n (0 : Fin 1)) ((ValueIdx.contrEquiv1 dot_S4762x256_S256x1_S4762x1_1_0_0_1_n_n 256 rfl rfl).symm k) = ix2 k (0 : Fin 1) := funext fun a => Fin.ext (by
    match a with
    | ⟨0, _⟩ => exact (rhs_gene_0 _ _).trans hk
    | ⟨1, _⟩ => exact rhs_gene_1 _ _)
  rw [el, er]

/-- The operand indices of the [847, 256] × [256, 1] product at output index `i` and contraction index `q`, axis by axis. -/
theorem lhs_cell_0 (i : S847x1.Idx) (q : dot_S847x256_S256x1_S847x1_1_0_0_1_n_n.contr.Idx) :
    (dot_S847x256_S256x1_S847x1_1_0_0_1_n_n.lhsIdx i q 0).val = (i 0).val := by
  unfold DotDims.lhsIdx
  rw [dif_neg (show ¬(0 : Fin S847x256.rank) ∈ dot_S847x256_S256x1_S847x1_1_0_0_1_n_n.lhsBatch by decide), dif_pos (show (0 : Fin S847x256.rank) ∈ dot_S847x256_S256x1_S847x1_1_0_0_1_n_n.lhsNonContracting by decide)]
  rfl
theorem lhs_cell_1 (i : S847x1.Idx) (q : dot_S847x256_S256x1_S847x1_1_0_0_1_n_n.contr.Idx) :
    (dot_S847x256_S256x1_S847x1_1_0_0_1_n_n.lhsIdx i q 1).val = (q ⟨0, by decide⟩).val :=
  dot_S847x256_S256x1_S847x1_1_0_0_1_n_n.lhsIdx_val_of_single rfl i q
theorem rhs_cell_0 (i : S847x1.Idx) (q : dot_S847x256_S256x1_S847x1_1_0_0_1_n_n.contr.Idx) :
    (dot_S847x256_S256x1_S847x1_1_0_0_1_n_n.rhsIdx i q 0).val = (q ⟨0, by decide⟩).val :=
  dot_S847x256_S256x1_S847x1_1_0_0_1_n_n.rhsIdx_val_of_single rfl i q
theorem rhs_cell_1 (i : S847x1.Idx) (q : dot_S847x256_S256x1_S847x1_1_0_0_1_n_n.contr.Idx) :
    (dot_S847x256_S256x1_S847x1_1_0_0_1_n_n.rhsIdx i q 1).val = (i 1).val := by
  unfold DotDims.rhsIdx
  rw [dif_neg (show ¬(1 : Fin S256x1.rank) ∈ dot_S847x256_S256x1_S847x1_1_0_0_1_n_n.rhsBatch by decide), dif_pos (show (1 : Fin S256x1.rank) ∈ dot_S847x256_S256x1_S847x1_1_0_0_1_n_n.rhsNonContracting by decide)]
  rfl

/-- A [847, 256] table times a [256, 1] column, read at `(n, 0)`: the sum over the 256 features. -/
theorem dot_cell_apply (h : FVec Ideal S847x256 .f32) (v : FVec Ideal S256x1 .f32) (n : Fin 847) :
    Host.dotGeneral (F := Ideal) dot_S847x256_S256x1_S847x1_1_0_0_1_n_n none h v (ix2 n (0 : Fin 1)) = ∑ q : Fin 256, h (ix2 n q) * v (ix2 q (0 : Fin 1)) := by
  simp only [Host.dotGeneral]
  rw [Ideal.dotGeneral_apply, ← Equiv.sum_comp (ValueIdx.contrEquiv1 dot_S847x256_S256x1_S847x1_1_0_0_1_n_n 256 rfl rfl).symm]
  refine Finset.sum_congr rfl fun k _ => ?_
  have hk := ValueIdx.contrEquiv1_symm_val dot_S847x256_S256x1_S847x1_1_0_0_1_n_n 256 rfl rfl k
  have el : dot_S847x256_S256x1_S847x1_1_0_0_1_n_n.lhsIdx (ix2 n (0 : Fin 1)) ((ValueIdx.contrEquiv1 dot_S847x256_S256x1_S847x1_1_0_0_1_n_n 256 rfl rfl).symm k) = ix2 n k := funext fun a => Fin.ext (by
    match a with
    | ⟨0, _⟩ => exact lhs_cell_0 _ _
    | ⟨1, _⟩ => exact (lhs_cell_1 _ _).trans hk)
  have er : dot_S847x256_S256x1_S847x1_1_0_0_1_n_n.rhsIdx (ix2 n (0 : Fin 1)) ((ValueIdx.contrEquiv1 dot_S847x256_S256x1_S847x1_1_0_0_1_n_n 256 rfl rfl).symm k) = ix2 k (0 : Fin 1) := funext fun a => Fin.ext (by
    match a with
    | ⟨0, _⟩ => exact (rhs_cell_0 _ _).trans hk
    | ⟨1, _⟩ => exact rhs_cell_1 _ _)
  rw [el, er]

/-- The first half of the projection vector, read at `(q, 0)`. -/
theorem slice_lo_apply (Wp : FVec Ideal S512x1 .f32) (q : Fin 256) :
    extractStridedSlice S256x1 ![0, 0] Wp slices_S512x1_S256x1_0_0 (ix2 q (0 : Fin 1)) = Wp (ix2 ⟨q.val, by omega⟩ (0 : Fin 1)) :=
  extractStridedSlice_apply _ Wp slices_S512x1_S256x1_0_0 (ix2 q (0 : Fin 1)) (ix2 ⟨q.val, by omega⟩ (0 : Fin 1)) (fun a => match a with
    | ⟨0, _⟩ => by show q.val = 0 + q.val; omega
    | ⟨1, _⟩ => by show 0 = 0 + 0; rfl)

/-- The second half of the projection vector, read at `(q, 0)`. -/
theorem slice_hi_apply (Wp : FVec Ideal S512x1 .f32) (q : Fin 256) :
    extractStridedSlice S256x1 ![256, 0] Wp slices_S512x1_S256x1_256_0 (ix2 q (0 : Fin 1)) = Wp (ix2 ⟨256 + q.val, by omega⟩ (0 : Fin 1)) :=
  extractStridedSlice_apply _ Wp slices_S512x1_S256x1_256_0 (ix2 q (0 : Fin 1)) (ix2 ⟨256 + q.val, by omega⟩ (0 : Fin 1)) (fun a => match a with
    | ⟨0, _⟩ => by show 256 + q.val = 256 + q.val; rfl
    | ⟨1, _⟩ => by show 0 = 0 + 0; rfl)

/-- The bias broadcast to every edge reads the one bias value. -/
theorem bias_apply (bp : FVec Ideal S1 .f32) (e : Fin 200000) :
    broadcastInDim S200000x1 ![0, 1] bcast_S1x1_S200000x1_0_1 (broadcastInDim S1x1 ![1] bcast_S1_S1x1_1 bp) (ix2 e (0 : Fin 1)) = bp (ix1 0) := by
  rw [broadcastInDim_apply _ bcast_S1x1_S200000x1_0_1 _ (ix2 e (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])]
  exact broadcastInDim_apply _ bcast_S1_S1x1_1 bp (ix2 (0 : Fin 1) (0 : Fin 1)) (ix1 (0 : Fin 1)) (fun a => match a with
    | ⟨0, _⟩ => by show 0 = if (1 : Nat) = 1 then 0 else _; rw [if_pos rfl])

/-- The decoder as the kernel's program computes it. -/
theorem decode_ker (hg : FVec Ideal S4762x256 .f32) (hc : FVec Ideal S847x256 .f32) (Wp : FVec Ideal S512x1 .f32)
    (bp : FVec Ideal S1 .f32) (iA iB : IVec S200000x1 32) :
    addf (addf
        (Host.gather gather_S4762x1_S200000x1_S200000x1_1_0_n_n_0_1_11
          (Host.dotGeneral dot_S4762x256_S256x1_S4762x1_1_0_0_1_n_n none hg (extractStridedSlice S256x1 ![0, 0] Wp slices_S512x1_S256x1_0_0)) iA)
        (Host.gather gather_S847x1_S200000x1_S200000x1_1_0_n_n_0_1_11
          (Host.dotGeneral dot_S847x256_S256x1_S847x1_1_0_0_1_n_n none hc (extractStridedSlice S256x1 ![256, 0] Wp slices_S512x1_S256x1_256_0)) iB))
        (broadcastInDim S200000x1 ![0, 1] bcast_S1x1_S200000x1_0_1 (broadcastInDim S1x1 ![1] bcast_S1_S1x1_1 bp))
      = decodeSpec hg hc Wp (bp (ix1 0)) iA iB := by
  funext j
  obtain ⟨e, z, rfl⟩ : ∃ (e : Fin 200000) (z : Fin 1), j = ix2 e z := ⟨j 0, j 1, eq_ix2 j⟩
  obtain rfl : z = 0 := Subsingleton.elim _ _
  -- pointwise sums; the bias; each lookup reads its column at the clamped row; each column is a sum over the features
  rw [addf_apply, addf_apply, bias_apply,
    Lib.gather_rows_apply (by decide) gather_S4762x1_S200000x1_S200000x1_1_0_n_n_0_1_11 gather_S4762x1_S200000x1_S200000x1_1_0_n_n_0_1_11_wf rfl,
    Lib.gather_rows_apply (by decide) gather_S847x1_S200000x1_S200000x1_1_0_n_n_0_1_11 gather_S847x1_S200000x1_S200000x1_1_0_n_n_0_1_11_wf rfl,
    dot_gene_apply, dot_cell_apply]
  -- the two halves of the projection vector
  simp only [slice_lo_apply, slice_hi_apply]
  rfl

end Cert.Rgcn.Ker

end
-- ==== Proof.RefOps.lean ====
/-
  The reference program's operations, read as the specification's index functions.

  Each lemma is stated for ARBITRARY operand arrays, so that it is used on the run's composed term by rewriting:
  the row lookup followed by the accumulating scatter is the sum of the looked-up rows at their destinations
  (`aggSpec`); the scaling by the destination norm, the product with the weight matrix, the bias and the clamp at
  zero are `convSpec`; the two row lookups side by side against the projection vector, plus the bias, are
  `decodeSpec` (the sum over the 512 joined columns splits into the first 256 and the last 256).
-/
import proofs.«424038_j7739531067737_3_alg».proof.Proof.Gen.ReferenceIdeal.Read
import proofs.«424038_j7739531067737_3_alg».proof.Proof.Spec
import proofs.«424038_j7739531067737_3_alg».proof.Proof.LibIndexed

noncomputable section

namespace Cert.Rgcn.Ref

open Cert.ReferenceIdeal Cert.ReferenceIdeal.Gen Idealize.ShloMosaic Idealize.ShloMosaic.TcCoe Idealize.SL.Sem Idealize.ShloMosaic.StableHlo
open Idealize.ShloMosaic.ValueIdx Cert.Rgcn

/-- The splat of the scalar constant with all bits clear is zero at every index. -/
theorem zero_splat_apply {t : Shape} (h : (⟨0, ![]⟩ : Shape).BroadcastsInDim t (![] : Fin 0 → Fin t.rank)) (j : t.Idx) :
    broadcastInDim t ![] h (constant (F := Ideal) (⟨0, ![]⟩ : Shape) .f32 0x00000000#32) j = 0 := by
  rw [broadcastInDim_apply _ h _ j (fun a => a.elim0) (fun a => a.elim0)]
  exact Ideal.ofBits_zero_f32

/-- Gene rows looked up at the source words and summed at the cell destinations. -/
theorem agg_cell (feat : FVec Ideal S4762x256 .f32) (dstIdx srcIdx : IVec S200000x1 32) :
    Host.scatterAdd (F := Ideal) scatter_S847x256_S200000x1_S200000x256_1_0_0_1
        (broadcastInDim S847x256 ![] bcast_S_S847x256 (constant S_ .f32 0x00000000#32)) dstIdx
        (Host.gather gather_S4762x256_S200000x1_S200000x256_1_0_n_n_0_1_1256 feat srcIdx)
      = aggSpec 4762 847 (by decide) feat dstIdx srcIdx := by
  funext j
  obtain ⟨n, k, rfl⟩ : ∃ n k, j = ix2 n k := ⟨j 0, j 1, eq_ix2 j⟩
  -- the scatter is its operand (the zero splat) plus the updates whose destination word names row `n`
  rw [Lib.scatterAdd_rows_apply scatter_S847x256_S200000x1_S200000x256_1_0_0_1 scatter_S847x256_S200000x1_S200000x256_1_0_0_1_wf rfl, zero_splat_apply, zero_add]
  -- each update is the row lookup; its clamped row is the specification's `rowOf`
  refine Finset.sum_congr rfl (fun e _ => ?_)
  rw [Lib.gather_rows_apply (by decide) gather_S4762x256_S200000x1_S200000x256_1_0_n_n_0_1_1256 gather_S4762x256_S200000x1_S200000x256_1_0_n_n_0_1_1256_wf rfl]
  rfl

/-- Cell rows looked up at the source words and summed at the gene destinations. -/
theorem agg_gene (feat : FVec Ideal S847x256 .f32) (dstIdx srcIdx : IVec S200000x1 32) :
    Host.scatterAdd (F := Ideal) scatter_S4762x256_S200000x1_S200000x256_1_0_0_1
        (broadcastInDim S4762x256 ![] bcast_S_S4762x256 (constant S_ .f32 0x00000000#32)) dstIdx
        (Host.gather gather_S847x256_S200000x1_S200000x256_1_0_n_n_0_1_1256 feat srcIdx)
      = aggSpec 847 4762 (by decide) feat dstIdx srcIdx := by
  funext j
  obtain ⟨n, k, rfl⟩ : ∃ n k, j = ix2 n k := ⟨j 0, j 1, eq_ix2 j⟩
  -- the scatter is its operand (the zero splat) plus the updates whose destination word names row `n`
  rw [Lib.scatterAdd_rows_apply scatter_S4762x256_S200000x1_S200000x256_1_0_0_1 scatter_S4762x256_S200000x1_S200000x256_1_0_0_1_wf rfl, zero_splat_apply, zero_add]
  -- each update is the row lookup; its clamped row is the specification's `rowOf`
  refine Finset.sum_congr rfl (fun e _ => ?_)
  rw [Lib.gather_rows_apply (by decide) gather_S847x256_S200000x1_S200000x256_1_0_n_n_0_1_1256 gather_S847x256_S200000x1_S200000x256_1_0_n_n_0_1_1256_wf rfl]
  rfl

/-- The host's product of an `847 × 256` array with the `256 × 256` weights, read at an index as the sum over the joined column. -/
theorem dot_847_apply (x : FVec Ideal S847x256 .f32) (W : FVec Ideal S256x256 .f32) (j : S847x256.Idx) :
    Host.dotGeneral (F := Ideal) dot_S847x256_S256x256_S847x256_1_0_0_1_n_n none x W j
      = ∑ q : Fin 256, x (ix2 (j 0) q) * W (ix2 q (j 1)) := by
  simp only [Host.dotGeneral]
  rw [Ideal.dotGeneral_apply, ← Equiv.sum_comp (ValueIdx.contrEquiv1 dot_S847x256_S256x256_S847x256_1_0_0_1_n_n 256 rfl rfl).symm]
  refine Finset.sum_congr rfl fun q _ => ?_
  have hq := ValueIdx.contrEquiv1_symm_val dot_S847x256_S256x256_S847x256_1_0_0_1_n_n 256 rfl rfl q
  -- the left operand is read at row `j 0`, joined column `q`
  have el : dot_S847x256_S256x256_S847x256_1_0_0_1_n_n.lhsIdx j ((ValueIdx.contrEquiv1 dot_S847x256_S256x256_S847x256_1_0_0_1_n_n 256 rfl rfl).symm q) = ix2 (j 0) q := funext fun a => Fin.ext (by
    match a with
    | ⟨0, _⟩ => exact Read.lhs_main_v29_0 _ _
    | ⟨1, _⟩ => exact (Read.lhs_main_v29_1 _ _).trans hq)
  -- the right operand is read at joined row `q`, column `j 1`
  have er : dot_S847x256_S256x256_S847x256_1_0_0_1_n_n.rhsIdx j ((ValueIdx.contrEquiv1 dot_S847x256_S256x256_S847x256_1_0_0_1_n_n 256 rfl rfl).symm q) = ix2 q (j 1) := funext fun a => Fin.ext (by
    match a with
    | ⟨0, _⟩ => exact (Read.rhs_main_v29_0 _ _).trans hq
    | ⟨1, _⟩ => exact Read.rhs_main_v29_1 _ _)
  rw [el, er]
  rfl

/-- The destination norm spread along the columns: at `(i, k)` it is the norm of row `i`. -/
theorem norm_spread_847 (nd : FVec Ideal S847 .f32) (i : S847x256.Idx) :
    broadcastInDim S847x256 ![0, 1] bcast_S847x1_S847x256_0_1 (broadcastInDim S847x1 ![0] bcast_S847_S847x1_0 nd) i = nd (ix1 (i 0)) := by
  rw [broadcastInDim_apply _ bcast_S847x1_S847x256_0_1 _ i (ix2 (i 0) (0 : Fin 1)) (fun a => match a with
    | ⟨0, _⟩ => by show (i 0).val = if (847 : Nat) = 1 then 0 else (i 0).val; rw [if_neg (by decide)]
    | ⟨1, _⟩ => by show 0 = if (1 : Nat) = 1 then 0 else (i 1).val; rw [if_pos rfl])]
  exact broadcastInDim_apply _ bcast_S847_S847x1_0 nd _ (ix1 (i 0)) (fun a => match a with
    | ⟨0, _⟩ => by show (i 0).val = if (847 : Nat) = 1 then 0 else (i 0).val; rw [if_neg (by decide)])

/-- The bias spread along the rows: at `(i, k)` it is entry `k` of the bias. -/
theorem bias_spread_847 (b : FVec Ideal S256 .f32) (i : S847x256.Idx) :
    broadcastInDim S847x256 ![0, 1] bcast_S1x256_S847x256_0_1 (broadcastInDim S1x256 ![1] bcast_S256_S1x256_1 b) i = b (ix1 (i 1)) := by
  rw [broadcastInDim_apply _ bcast_S1x256_S847x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 b _ (ix1 (i 1)) (fun a => match a with
    | ⟨0, _⟩ => by show (i 1).val = if (256 : Nat) = 1 then 0 else (i 1).val; rw [if_neg (by decide)])

/-- The rest of the cell convolution. -/
theorem conv_cell (agg : FVec Ideal S847x256 .f32) (nd : FVec Ideal S847 .f32) (W : FVec Ideal S256x256 .f32) (b : FVec Ideal S256 .f32) :
    maximumf (addf (Host.dotGeneral dot_S847x256_S256x256_S847x256_1_0_0_1_n_n none
        (mulf agg (broadcastInDim S847x256 ![0, 1] bcast_S847x1_S847x256_0_1 (broadcastInDim S847x1 ![0] bcast_S847_S847x1_0 nd))) W)
        (broadcastInDim S847x256 ![0, 1] bcast_S1x256_S847x256_0_1 (broadcastInDim S1x256 ![1] bcast_S256_S1x256_1 b)))
        (broadcastInDim S847x256 ![] bcast_S_S847x256 (constant S_ .f32 0x00000000#32))
      = convSpec 847 agg (fun i => nd (ix1 i)) W (fun k => b (ix1 k)) := by
  funext j
  -- the clamp, the sum with the bias and the product are pointwise; the matrix product is a sum over the joined column
  rw [maximumf_apply, addf_apply, zero_splat_apply, dot_847_apply, bias_spread_847]
  unfold convSpec
  refine congrArg (fun s => max (s + b (ix1 (j 1))) 0) (Finset.sum_congr rfl (fun q _ => ?_))
  rw [mulf_apply, norm_spread_847]

/-- The host's product of a `4762 × 256` array with the `256 × 256` weights, read at an index as the sum over the joined column. -/
theorem dot_4762_apply (x : FVec Ideal S4762x256 .f32) (W : FVec Ideal S256x256 .f32) (j : S4762x256.Idx) :
    Host.dotGeneral (F := Ideal) dot_S4762x256_S256x256_S4762x256_1_0_0_1_n_n none x W j
      = ∑ q : Fin 256, x (ix2 (j 0) q) * W (ix2 q (j 1)) := by
  simp only [Host.dotGeneral]
  rw [Ideal.dotGeneral_apply, ← Equiv.sum_comp (ValueIdx.contrEquiv1 dot_S4762x256_S256x256_S4762x256_1_0_0_1_n_n 256 rfl rfl).symm]
  refine Finset.sum_congr rfl fun q _ => ?_
  have hq := ValueIdx.contrEquiv1_symm_val dot_S4762x256_S256x256_S4762x256_1_0_0_1_n_n 256 rfl rfl q
  -- the left operand is read at row `j 0`, joined column `q`
  have el : dot_S4762x256_S256x256_S4762x256_1_0_0_1_n_n.lhsIdx j ((ValueIdx.contrEquiv1 dot_S4762x256_S256x256_S4762x256_1_0_0_1_n_n 256 rfl rfl).symm q) = ix2 (j 0) q := funext fun a => Fin.ext (by
    match a with
    | ⟨0, _⟩ => exact Read.lhs_main_v62_0 _ _
    | ⟨1, _⟩ => exact (Read.lhs_main_v62_1 _ _).trans hq)
  -- the right operand is read at joined row `q`, column `j 1`
  have er : dot_S4762x256_S256x256_S4762x256_1_0_0_1_n_n.rhsIdx j ((ValueIdx.contrEquiv1 dot_S4762x256_S256x256_S4762x256_1_0_0_1_n_n 256 rfl rfl).symm q) = ix2 q (j 1) := funext fun a => Fin.ext (by
    match a with
    | ⟨0, _⟩ => exact (Read.rhs_main_v62_0 _ _).trans hq
    | ⟨1, _⟩ => exact Read.rhs_main_v62_1 _ _)
  rw [el, er]
  rfl

/-- The destination norm spread along the columns: at `(i, k)` it is the norm of row `i`. -/
theorem norm_spread_4762 (nd : FVec Ideal S4762 .f32) (i : S4762x256.Idx) :
    broadcastInDim S4762x256 ![0, 1] bcast_S4762x1_S4762x256_0_1 (broadcastInDim S4762x1 ![0] bcast_S4762_S4762x1_0 nd) i = nd (ix1 (i 0)) := by
  rw [broadcastInDim_apply _ bcast_S4762x1_S4762x256_0_1 _ i (ix2 (i 0) (0 : Fin 1)) (fun a => match a with
    | ⟨0, _⟩ => by show (i 0).val = if (4762 : Nat) = 1 then 0 else (i 0).val; rw [if_neg (by decide)]
    | ⟨1, _⟩ => by show 0 = if (1 : Nat) = 1 then 0 else (i 1).val; rw [if_pos rfl])]
  exact broadcastInDim_apply _ bcast_S4762_S4762x1_0 nd _ (ix1 (i 0)) (fun a => match a with
    | ⟨0, _⟩ => by show (i 0).val = if (4762 : Nat) = 1 then 0 else (i 0).val; rw [if_neg (by decide)])

/-- The bias spread along the rows: at `(i, k)` it is entry `k` of the bias. -/
theorem bias_spread_4762 (b : FVec Ideal S256 .f32) (i : S4762x256.Idx) :
    broadcastInDim S4762x256 ![0, 1] bcast_S1x256_S4762x256_0_1 (broadcastInDim S1x256 ![1] bcast_S256_S1x256_1 b) i = b (ix1 (i 1)) := by
  rw [broadcastInDim_apply _ bcast_S1x256_S4762x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 b _ (ix1 (i 1)) (fun a => match a with
    | ⟨0, _⟩ => by show (i 1).val = if (256 : Nat) = 1 then 0 else (i 1).val; rw [if_neg (by decide)])

/-- The rest of the gene convolution. -/
theorem conv_gene (agg : FVec Ideal S4762x256 .f32) (nd : FVec Ideal S4762 .f32) (W : FVec Ideal S256x256 .f32) (b : FVec Ideal S256 .f32) :
    maximumf (addf (Host.dotGeneral dot_S4762x256_S256x256_S4762x256_1_0_0_1_n_n none
        (mulf agg (broadcastInDim S4762x256 ![0, 1] bcast_S4762x1_S4762x256_0_1 (broadcastInDim S4762x1 ![0] bcast_S4762_S4762x1_0 nd))) W)
        (broadcastInDim S4762x256 ![0, 1] bcast_S1x256_S4762x256_0_1 (broadcastInDim S1x256 ![1] bcast_S256_S1x256_1 b)))
        (broadcastInDim S4762x256 ![] bcast_S_S4762x256 (constant S_ .f32 0x00000000#32))
      = convSpec 4762 agg (fun i => nd (ix1 i)) W (fun k => b (ix1 k)) := by
  funext j
  -- the clamp, the sum with the bias and the product are pointwise; the matrix product is a sum over the joined column
  rw [maximumf_apply, addf_apply, zero_splat_apply, dot_4762_apply, bias_spread_4762]
  unfold convSpec
  refine congrArg (fun s => max (s + b (ix1 (j 1))) 0) (Finset.sum_congr rfl (fun q _ => ?_))
  rw [mulf_apply, norm_spread_4762]

end Cert.Rgcn.Ref

end
-- ==== Proof.RefDecode.lean ====
/-
  The reference program's decoder, read as the specification's index function: the gene row and the cell row an
  edge's two start words name are laid side by side (512 columns) and multiplied into the projection vector; the
  sum over the 512 joined columns is the sum over the first 256 (the gene row against the first half of the
  vector) plus the sum over the last 256 (the cell row against the second half); then the scalar bias.
-/
import proofs.«424038_j7739531067737_3_alg».proof.Proof.Gen.ReferenceIdeal.Read
import proofs.«424038_j7739531067737_3_alg».proof.Proof.Spec
import proofs.«424038_j7739531067737_3_alg».proof.Proof.LibIndexed
import Mathlib.Algebra.BigOperators.Fin

noncomputable section

namespace Cert.Rgcn.Ref

open Cert.ReferenceIdeal Cert.ReferenceIdeal.Gen Idealize.ShloMosaic Idealize.ShloMosaic.TcCoe Idealize.SL.Sem Idealize.ShloMosaic.StableHlo
open Idealize.ShloMosaic.ValueIdx Cert.Rgcn

/-- The product with the projection vector read at an edge: the sum over the 512 joined columns. -/
theorem dot_apply (y0 : FVec Ideal S200000x512 .f32) (Wp : FVec Ideal S512x1 .f32) (i : S200000x1.Idx) :
    Host.dotGeneral dot_S200000x512_S512x1_S200000x1_1_0_0_1_n_n none y0 Wp i
      = ∑ k : Fin 512, y0 (Read.lidx_main_v83 i k) * Wp (Read.ridx_main_v83 i k) := by
  simp only [Host.dotGeneral]
  rw [Ideal.dotGeneral_apply, ← Equiv.sum_comp (ValueIdx.contrEquiv1 dot_S200000x512_S512x1_S200000x1_1_0_0_1_n_n 512 rfl rfl).symm]
  refine Finset.sum_congr rfl fun k _ => ?_
  have hk := ValueIdx.contrEquiv1_symm_val dot_S200000x512_S512x1_S200000x1_1_0_0_1_n_n 512 rfl rfl k
  have el : dot_S200000x512_S512x1_S200000x1_1_0_0_1_n_n.lhsIdx i ((ValueIdx.contrEquiv1 dot_S200000x512_S512x1_S200000x1_1_0_0_1_n_n 512 rfl rfl).symm k) = Read.lidx_main_v83 i k := funext fun a => Fin.ext (by
    match a with
    | ⟨0, _⟩ => exact Read.lhs_main_v83_0 _ _
    | ⟨1, _⟩ => exact (Read.lhs_main_v83_1 _ _).trans hk)
  have er : dot_S200000x512_S512x1_S200000x1_1_0_0_1_n_n.rhsIdx i ((ValueIdx.contrEquiv1 dot_S200000x512_S512x1_S200000x1_1_0_0_1_n_n 512 rfl rfl).symm k) = Read.ridx_main_v83 i k := funext fun a => Fin.ext (by
    match a with
    | ⟨0, _⟩ => exact (Read.rhs_main_v83_0 _ _).trans hk
    | ⟨1, _⟩ => exact Read.rhs_main_v83_1 _ _)
  rw [el, er]

/-- The two-step broadcast of the scalar bias reads the bias at every edge. -/
theorem bias_apply (bp : FVec Ideal S1 .f32) (i : S200000x1.Idx) :
    broadcastInDim S200000x1 ![0, 1] bcast_S1x1_S200000x1_0_1 (broadcastInDim S1x1 ![1] bcast_S1_S1x1_1 bp) i = bp (ix1 0) := by
  have h1 := Read.val_main_v85_apply (F := Ideal) bp i
  have h2 := Read.val_main_v84_apply (F := Ideal) bp (Read.idx_main_v85 i)
  unfold Read.val_main_v85 at h1
  unfold Read.val_main_v84 at h1 h2
  rw [h1, h2]
  congr 1
  funext a
  match a with
  | ⟨0, _⟩ => rfl

/-- A sum over the 512 joined columns is the sum over the first 256 plus the sum over the last 256. -/
theorem sum_split (g : Fin 512 → EReal) :
    (∑ k : Fin 512, g k) = (∑ q : Fin 256, g ⟨q.val, by omega⟩) + ∑ q : Fin 256, g ⟨256 + q.val, by omega⟩ :=
  Fin.sum_univ_add (a := 256) (b := 256) g

/-- Two row tables laid side by side, read at a column of the first. -/
theorem cat_apply_left (a b : FVec Ideal S200000x256 .f32) (j : S200000x512.Idx) (q : Fin 256) (hq : (j 1).val = q.val) :
    concatenate S200000x512 1 [⟨S200000x256, a⟩, ⟨S200000x256, b⟩] concatenates_S200000x256_S200000x256_S200000x512_d1 j
      = a (ix2 (n0 := 200000) (n1 := 256) ⟨(j 0).val, (j 0).isLt⟩ q) :=
  concatenate_pair_apply_left 1 a b _ j rfl _ (fun c => match c with
    | ⟨0, _⟩ => rfl
    | ⟨1, _⟩ => hq.symm)

/-- Two row tables laid side by side, read at a column of the second. -/
theorem cat_apply_right (a b : FVec Ideal S200000x256 .f32) (j : S200000x512.Idx) (q : Fin 256) (hq : (j 1).val = 256 + q.val) :
    concatenate S200000x512 1 [⟨S200000x256, a⟩, ⟨S200000x256, b⟩] concatenates_S200000x256_S200000x256_S200000x512_d1 j
      = b (ix2 (n0 := 200000) (n1 := 256) ⟨(j 0).val, (j 0).isLt⟩ q) :=
  concatenate_pair_apply_right 1 a b _ j rfl rfl _ (fun c hc => match c, hc with
    | ⟨0, _⟩, _ => rfl
    | ⟨1, _⟩, hc => absurd rfl hc) (by show q.val + 256 = (j 1).val; omega)

/-- The projection vector's index at contraction position `k`: row `k`, the one column. -/
theorem ridx_eq (j : S200000x1.Idx) (k : Fin 512) : Read.ridx_main_v83 j k = ix2 (n0 := 512) (n1 := 1) k 0 := by
  funext a
  refine Fin.ext ?_
  match a with
  | ⟨0, _⟩ => rfl
  | ⟨1, _⟩ =>
    have := (j 1).isLt
    show (j 1).val = 0
    change (j 1).val < 1 at this
    omega

theorem decode_ref (hg : FVec Ideal S4762x256 .f32) (hc : FVec Ideal S847x256 .f32) (Wp : FVec Ideal S512x1 .f32)
    (bp : FVec Ideal S1 .f32) (iA iB : IVec S200000x1 32) :
    addf (Host.dotGeneral dot_S200000x512_S512x1_S200000x1_1_0_0_1_n_n none
        (concatenate S200000x512 1 [⟨S200000x256, Host.gather gather_S4762x256_S200000x1_S200000x256_1_0_n_n_0_1_1256 hg iA⟩,
          ⟨S200000x256, Host.gather gather_S847x256_S200000x1_S200000x256_1_0_n_n_0_1_1256 hc iB⟩]
          concatenates_S200000x256_S200000x256_S200000x512_d1) Wp)
        (broadcastInDim S200000x1 ![0, 1] bcast_S1x1_S200000x1_0_1 (broadcastInDim S1x1 ![1] bcast_S1_S1x1_1 bp))
      = decodeSpec hg hc Wp (bp (ix1 0)) iA iB := by
  -- at edge `j`: the pointwise sum of the product and the broadcast bias
  funext j
  show FloatOps.addf (Host.dotGeneral dot_S200000x512_S512x1_S200000x1_1_0_0_1_n_n none _ Wp j) (broadcastInDim S200000x1 ![0, 1] bcast_S1x1_S200000x1_0_1 (broadcastInDim S1x1 ![1] bcast_S1_S1x1_1 bp) j) = _
  -- the product as a sum over the 512 joined columns, split into its two halves; the bias read at its one index
  rw [dot_apply, bias_apply, sum_split]
  unfold decodeSpec
  show _ + _ = _ + _
  congr 1
  congr 1
  · -- a column below 256 reads the gene table's looked-up row, whose clamped row is the specification's
    refine Finset.sum_congr rfl fun q _ => ?_
    rw [cat_apply_left _ _ _ q rfl, ridx_eq]
    rw [Cert.Rgcn.Lib.gather_rows_apply (by decide) gather_S4762x256_S200000x1_S200000x256_1_0_n_n_0_1_1256 gather_S4762x256_S200000x1_S200000x256_1_0_n_n_0_1_1256_wf rfl hg iA]
    rfl
  · -- column `256 + q` reads the cell table's looked-up row at column `q`
    refine Finset.sum_congr rfl fun q _ => ?_
    rw [cat_apply_right _ _ _ q rfl, ridx_eq]
    rw [Cert.Rgcn.Lib.gather_rows_apply (by decide) gather_S847x256_S200000x1_S200000x256_1_0_n_n_0_1_1256 gather_S847x256_S200000x1_S200000x256_1_0_n_n_0_1_1256_wf rfl hc iB]
    rfl

end Cert.Rgcn.Ref

end
-- ==== Proof.Bridge.lean ====
/-
  The count-matrix product is the per-edge aggregation.

  When every source word is a row number of the source table and every combined word is (destination word) · NS +
  (source word), the combined word of edge `e` equals `i · NS + s` exactly when its destination word is `i` and its
  source word is `s` (division with remainder by NS is unique). So row `i` of the count matrix counts, at column
  `s`, the edges from `s` to `i`, and the product of the count matrix with the feature table sums, at `(i, k)`,
  feature `k` of the source rows of the edges that end at `i`: counts times values are the values summed over the
  counted edges, on the extended reals too.
-/
import proofs.«424038_j7739531067737_3_alg».proof.Proof.Spec
import proofs.«424038_j7739531067737_3_alg».proof.Proof.LibIndexed

noncomputable section

namespace Cert.Rgcn

open Idealize.ShloMosaic Idealize.ShloMosaic.ValueIdx

/-- Division with remainder by `NS` is unique: with both remainders in `[0, NS)`, `d · NS + r = i · NS + s`
    forces `d = i` and `r = s`. -/
theorem divmod_unique (NS : ℕ) (d r : ℤ) (i s : ℕ) (hr0 : 0 ≤ r) (hr : r < (NS : ℤ)) (hs : s < NS) :
    d * (NS : ℤ) + r = ((i * NS + s : ℕ) : ℤ) ↔ d = (i : ℤ) ∧ r = (s : ℤ) := by
  constructor
  · intro h
    push_cast at h
    -- both sides modulo `NS`: the remainders agree
    have hrs : r = (s : ℤ) := by
      have h1 : (r + d * (NS : ℤ)) % (NS : ℤ) = ((s : ℤ) + (i : ℤ) * (NS : ℤ)) % (NS : ℤ) := by
        rw [add_comm r, h, add_comm]
      rw [Int.add_mul_emod_self_right, Int.add_mul_emod_self_right, Int.emod_eq_of_lt hr0 hr,
        Int.emod_eq_of_lt (by omega) (by omega)] at h1
      exact h1
    -- then the multiples of `NS` agree, and `NS` is not zero
    have h2 : d * (NS : ℤ) = (i : ℤ) * (NS : ℤ) := by
      rw [hrs] at h
      exact add_right_cancel h
    exact ⟨Int.eq_of_mul_eq_mul_right (by omega) h2, hrs⟩
  · rintro ⟨rfl, rfl⟩
    push_cast
    rfl

theorem matAgg_count_eq_agg (NS ND : Nat) (hNS : 0 < NS) (feat : I2 NS 256 → EReal)
    (combIdx dstIdx srcIdx : I2 NE 1 → BitVec 32)
    (hs : ∀ e : Fin NE, 0 ≤ (srcIdx (ix2 e 0)).toInt ∧ (srcIdx (ix2 e 0)).toInt < (NS : ℤ))
    (hc : ∀ e : Fin NE, (combIdx (ix2 e 0)).toInt = (dstIdx (ix2 e 0)).toInt * (NS : ℤ) + (srcIdx (ix2 e 0)).toInt) :
    matAgg NS ND (countSpec NS ND combIdx) feat = aggSpec NS ND hNS feat dstIdx srcIdx := by
  funext j
  unfold matAgg countSpec aggSpec
  -- counts times values are the values summed over the counted edges
  refine Eq.trans ?_ (Lib.sum_count_mul (fun e : Fin NE => (dstIdx (ix2 e 0)).toInt = ((j 0).val : ℤ))
    (fun e => rowOf NS hNS (srcIdx (ix2 e 0))) (fun s => feat (ix2 s (j 1))))
  refine Finset.sum_congr rfl (fun s _ => ?_)
  refine congrArg (fun c => c * feat (ix2 s (j 1))) ?_
  refine Finset.sum_congr (Finset.filter_congr (fun e _ => ?_)) (fun _ _ => rfl)
  -- the combined word of edge `e` is `(j 0) · NS + s` exactly when its destination is `j 0` and its source row is `s`
  obtain ⟨h0, h1⟩ := hs e
  show (combIdx (ix2 e 0)).toInt = (((j 0).val * NS + s.val : ℕ) : ℤ) ↔ _
  rw [hc e, divmod_unique NS _ _ (j 0).val s.val h0 h1 s.isLt]
  refine and_congr_right (fun _ => ?_)
  -- a source word in `[0, NS)` names the row of its own value
  unfold rowOf
  rw [Fin.ext_iff]
  show _ ↔ min (srcIdx (ix2 e 0)).toInt.toNat (NS - 1) = s.val
  have := s.isLt
  omega

end Cert.Rgcn

end
-- ==== Proof.Words.lean ====
/-
  The index arrays the two programs build from an edge-word vector, read at an edge.

  A vector of words laid out as a column reads, at row `e`, the vector's word `e`. The row lookup's index vector
  first wraps a negative word by adding the table's length: a non-negative word is left as it is. The combined
  word, destination · NS + source in 32-bit arithmetic, is that number read signed when the destination is in
  [0, ND), the source in [0, NS) and ND · NS is below 2³¹: nothing wraps.
-/
import Idealize.ShloMosaic.Lib.ValueIdx
import Idealize.ShloMosaic.Lib.StableHlo.Predicate
import Idealize.ShloMosaic.PureOps

noncomputable section

namespace Cert.Rgcn.Words

open Idealize.ShloMosaic Idealize.ShloMosaic.ValueIdx

/-- A vector as a column, read at row `e`. -/
theorem col_apply {n w : Nat} (h1 : (⟨1, ![n]⟩ : Shape).BroadcastsInDim ⟨2, ![n, 1]⟩ ![0]) (x : IVec ⟨1, ![n]⟩ w) (e : Fin n) :
    broadcastInDim ⟨2, ![n, 1]⟩ ![0] h1 x (ix2 e (0 : Fin 1)) = x (ix1 e) := by
  simp only [broadcastInDim]
  congr 1
  funext a
  obtain rfl : a = 0 := Subsingleton.elim _ _
  refine Fin.ext ?_
  have he := e.isLt
  split
  · next h => change n = 1 at h; show (0 : Nat) = e.val; omega
  · rfl

/-- The row lookup's index column at an edge whose word is non-negative: the word itself. -/
theorem wrapped_col_apply {n : Nat} (N : BitVec 32) (h0 : (⟨0, ![]⟩ : Shape).BroadcastsInDim ⟨1, ![n]⟩ ![])
    (h1 : (⟨1, ![n]⟩ : Shape).BroadcastsInDim ⟨2, ![n, 1]⟩ ![0]) (x : IVec ⟨1, ![n]⟩ 32) (e : Fin n)
    (hx : 0 ≤ (x (ix1 e)).toInt) :
    broadcastInDim ⟨2, ![n, 1]⟩ ![0] h1
        (select (cmpi .slt x (broadcastInDim ⟨1, ![n]⟩ ![] h0 (constantI ⟨0, ![]⟩ 32 0#32)))
          (addi x (broadcastInDim ⟨1, ![n]⟩ ![] h0 (constantI ⟨0, ![]⟩ 32 N))) x) (ix2 e (0 : Fin 1))
      = x (ix1 e) := by
  rw [col_apply]
  -- at the edge: select (word < 0) (word + N) word, and the comparison is false
  show Scalar.select (IntOp.cmpi .slt (x (ix1 e)) 0#32) (IntOp.addi (x (ix1 e)) N) (x (ix1 e)) = x (ix1 e)
  have hc : ¬ IntOp.cmpi .slt (x (ix1 e)) 0#32 = 1#1 := by
    unfold IntOp.cmpi
    rw [StableHlo.Predicate.ofBool_eq_one_iff, BitVec.slt_iff_toInt_lt]
    have : (0#32 : BitVec 32).toInt = 0 := rfl
    omega
  exact if_neg hc

/-- A word that is non-negative read signed reads the same unsigned, below 2³¹. -/
theorem toNat_of_nonneg (a : BitVec 32) (h : 0 ≤ a.toInt) : a.toInt = (a.toNat : ℤ) ∧ a.toNat < 2 ^ 31 := by
  have h32 := a.isLt
  rw [BitVec.toInt_eq_toNat_cond] at h ⊢
  split at h <;> constructor <;> omega

/-- The combined word of an edge, read signed. -/
theorem comb_col_toInt {n : Nat} (NS ND : Nat) (hfit : ND * NS < 2 ^ 31) (h0 : (⟨0, ![]⟩ : Shape).BroadcastsInDim ⟨1, ![n]⟩ ![])
    (h1 : (⟨1, ![n]⟩ : Shape).BroadcastsInDim ⟨2, ![n, 1]⟩ ![0]) (d s : IVec ⟨1, ![n]⟩ 32) (e : Fin n)
    (hd : 0 ≤ (d (ix1 e)).toInt ∧ (d (ix1 e)).toInt < (ND : ℤ)) (hs : 0 ≤ (s (ix1 e)).toInt ∧ (s (ix1 e)).toInt < (NS : ℤ)) :
    (broadcastInDim ⟨2, ![n, 1]⟩ ![0] h1
        (addi (muli d (broadcastInDim ⟨1, ![n]⟩ ![] h0 (constantI ⟨0, ![]⟩ 32 (BitVec.ofNat 32 NS)))) s) (ix2 e (0 : Fin 1))).toInt
      = (d (ix1 e)).toInt * (NS : ℤ) + (s (ix1 e)).toInt := by
  rw [col_apply]
  -- at the edge: destination · NS + source in 32-bit arithmetic
  show (IntOp.addi (IntOp.muli (d (ix1 e)) (BitVec.ofNat 32 NS)) (s (ix1 e))).toInt = _
  generalize d (ix1 e) = D at hd ⊢
  generalize s (ix1 e) = S at hs ⊢
  obtain ⟨hd0, hd1⟩ := hd
  obtain ⟨hs0, hs1⟩ := hs
  obtain ⟨hDi, hD31⟩ := toNat_of_nonneg D hd0
  obtain ⟨hSi, hS31⟩ := toNat_of_nonneg S hs0
  rw [hDi] at hd1
  rw [hSi] at hs1
  have hDlt : D.toNat < ND := by exact_mod_cast hd1
  have hSlt : S.toNat < NS := by exact_mod_cast hs1
  -- nothing wraps: D · NS + S < (D + 1) · NS ≤ ND · NS < 2³¹
  have hstep : (D.toNat + 1) * NS ≤ ND * NS := Nat.mul_le_mul_right NS hDlt
  have hexp : (D.toNat + 1) * NS = D.toNat * NS + NS := by ring
  have hNS : NS ≤ ND * NS := Nat.le_mul_of_pos_left NS (by omega)
  have hres : (D * BitVec.ofNat 32 NS + S).toNat = D.toNat * NS + S.toNat := by
    rw [BitVec.toNat_add, BitVec.toNat_mul, BitVec.toNat_ofNat, Nat.mod_eq_of_lt (by omega : NS < 2 ^ 32),
      Nat.mod_eq_of_lt (by omega : D.toNat * NS < 2 ^ 32), Nat.mod_eq_of_lt (by omega)]
  unfold IntOp.addi IntOp.muli
  rw [StableHlo.Predicate.toInt_eq_toNat_of_lt (by rw [hres]; omega), hres, hDi, hSi]
  push_cast
  ring

end Cert.Rgcn.Words

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.Meet.lean ====
/-
  The two programs compute the same three arrays.

  Under the precondition every relation word is a node number of its node set. Then the kernel program's count
  matrix times the feature table is the reference's lookup-and-scatter aggregation (the combined word of an edge
  is destination · NS + source, nothing wrapping, and a non-negative source word is not wrapped by the lookup);
  the rest of each convolution is the same function on both sides; and the decoder's score is the same sum,
  split differently.
-/
import proofs.«424038_j7739531067737_3_alg».proof.Proof.KernelValue
import proofs.«424038_j7739531067737_3_alg».proof.Proof.KernelPay
import proofs.«424038_j7739531067737_3_alg».proof.Proof.KernelHost
import proofs.«424038_j7739531067737_3_alg».proof.Proof.RefOps
import proofs.«424038_j7739531067737_3_alg».proof.Proof.RefDecode
import proofs.«424038_j7739531067737_3_alg».proof.Proof.Bridge
import proofs.«424038_j7739531067737_3_alg».proof.Proof.Words
import proofs.«424038_j7739531067737_3_alg».proof.Proof.LibReshape

set_option maxRecDepth 16384

noncomputable section

namespace Cert.Rgcn.Meet

open Idealize.ShloMosaic Idealize.ShloMosaic.TcCoe Idealize.SL.Sem Idealize.ShloMosaic.ValueIdx
open Cert.Rgcn Cert.KernelIdeal.RunValue Cert.ReferenceIdeal.Read

variable (m : (ℓ : Loc Cert.KernelIdeal.nD Cert.KernelIdeal.τ Cert.KernelIdeal.sig) → Buf (Elt Ideal) ℓ) (c : Dev Cert.KernelIdeal.nD)

/-- What the precondition gives: every edge's four relation words are node numbers. -/
def InRange : Prop := ∀ e : Fin 200000,
  (0 ≤ ((m ((c : Thread Cert.KernelIdeal.nD Cert.KernelIdeal.τ).loc Cert.KernelIdeal.main_arg8)) (ix1 e)).toInt ∧ ((m ((c : Thread Cert.KernelIdeal.nD Cert.KernelIdeal.τ).loc Cert.KernelIdeal.main_arg8)) (ix1 e)).toInt < 4762) ∧ (0 ≤ ((m ((c : Thread Cert.KernelIdeal.nD Cert.KernelIdeal.τ).loc Cert.KernelIdeal.main_arg9)) (ix1 e)).toInt ∧ ((m ((c : Thread Cert.KernelIdeal.nD Cert.KernelIdeal.τ).loc Cert.KernelIdeal.main_arg9)) (ix1 e)).toInt < 847)
    ∧ (0 ≤ ((m ((c : Thread Cert.KernelIdeal.nD Cert.KernelIdeal.τ).loc Cert.KernelIdeal.main_arg10)) (ix1 e)).toInt ∧ ((m ((c : Thread Cert.KernelIdeal.nD Cert.KernelIdeal.τ).loc Cert.KernelIdeal.main_arg10)) (ix1 e)).toInt < 847) ∧ (0 ≤ ((m ((c : Thread Cert.KernelIdeal.nD Cert.KernelIdeal.τ).loc Cert.KernelIdeal.main_arg11)) (ix1 e)).toInt ∧ ((m ((c : Thread Cert.KernelIdeal.nD Cert.KernelIdeal.τ).loc Cert.KernelIdeal.main_arg11)) (ix1 e)).toInt < 4762)

/-- The cell table. -/
theorem cell_eq (hr : InRange m c) :
    val_main_v67 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg8)) (m ((c : Thread Cert.KernelIdeal.nD Cert.KernelIdeal.τ).loc Cert.KernelIdeal.main_arg9)) = cellOut (F := Ideal) m c := by
  have hsrc : ∀ e : Fin 200000, val_main_v15 (F := Ideal) (m ((c : Thread Cert.KernelIdeal.nD Cert.KernelIdeal.τ).loc Cert.KernelIdeal.main_arg8)) (ix2 e (0 : Fin 1)) = (m ((c : Thread Cert.KernelIdeal.nD Cert.KernelIdeal.τ).loc Cert.KernelIdeal.main_arg8)) (ix1 e) := fun e =>
    Words.wrapped_col_apply 4762#32 _ _ (m ((c : Thread Cert.KernelIdeal.nD Cert.KernelIdeal.τ).loc Cert.KernelIdeal.main_arg8)) e ((hr e).1).1
  have hdst : ∀ e : Fin 200000, val_main_v18 (F := Ideal) (m ((c : Thread Cert.KernelIdeal.nD Cert.KernelIdeal.τ).loc Cert.KernelIdeal.main_arg9)) (ix2 e (0 : Fin 1)) = (m ((c : Thread Cert.KernelIdeal.nD Cert.KernelIdeal.τ).loc Cert.KernelIdeal.main_arg9)) (ix1 e) := fun e =>
    Words.col_apply _ (m ((c : Thread Cert.KernelIdeal.nD Cert.KernelIdeal.τ).loc Cert.KernelIdeal.main_arg9)) e
  have hs : ∀ e : Fin NE, 0 ≤ (val_main_v15 (F := Ideal) (m ((c : Thread Cert.KernelIdeal.nD Cert.KernelIdeal.τ).loc Cert.KernelIdeal.main_arg8)) (ix2 e 0)).toInt ∧ (val_main_v15 (F := Ideal) (m ((c : Thread Cert.KernelIdeal.nD Cert.KernelIdeal.τ).loc Cert.KernelIdeal.main_arg8)) (ix2 e 0)).toInt < ((4762 : ℕ) : ℤ) := fun e => by
    rw [hsrc e]; exact (hr e).1
  have hc : ∀ e : Fin NE, (combCol (m ((c : Thread Cert.KernelIdeal.nD Cert.KernelIdeal.τ).loc Cert.KernelIdeal.main_arg9)) (m ((c : Thread Cert.KernelIdeal.nD Cert.KernelIdeal.τ).loc Cert.KernelIdeal.main_arg8)) 4762#32 (ix2 e 0)).toInt
      = (val_main_v18 (F := Ideal) (m ((c : Thread Cert.KernelIdeal.nD Cert.KernelIdeal.τ).loc Cert.KernelIdeal.main_arg9)) (ix2 e 0)).toInt * ((4762 : ℕ) : ℤ) + (val_main_v15 (F := Ideal) (m ((c : Thread Cert.KernelIdeal.nD Cert.KernelIdeal.τ).loc Cert.KernelIdeal.main_arg8)) (ix2 e 0)).toInt := fun e => by
    rw [hsrc e, hdst e]
    exact Words.comb_col_toInt 4762 847 (by norm_num) _ _ (m ((c : Thread Cert.KernelIdeal.nD Cert.KernelIdeal.τ).loc Cert.KernelIdeal.main_arg9)) (m ((c : Thread Cert.KernelIdeal.nD Cert.KernelIdeal.τ).loc Cert.KernelIdeal.main_arg8)) e ((hr e).2.1) ((hr e).1)
  unfold cellOut
  rw [Ker.pay_cell]
  refine (Ref.conv_cell (val_main_v19 (F := Ideal) (m ((c : Thread Cert.KernelIdeal.nD Cert.KernelIdeal.τ).loc Cert.KernelIdeal.main_arg0)) (m ((c : Thread Cert.KernelIdeal.nD Cert.KernelIdeal.τ).loc Cert.KernelIdeal.main_arg8)) (m ((c : Thread Cert.KernelIdeal.nD Cert.KernelIdeal.τ).loc Cert.KernelIdeal.main_arg9))) (val_main_v25 (F := Ideal) (m ((c : Thread Cert.KernelIdeal.nD Cert.KernelIdeal.τ).loc Cert.KernelIdeal.main_arg9))) (m ((c : Thread Cert.KernelIdeal.nD Cert.KernelIdeal.τ).loc Cert.KernelIdeal.main_arg2)) (m ((c : Thread Cert.KernelIdeal.nD Cert.KernelIdeal.τ).loc Cert.KernelIdeal.main_arg3))).trans ?_
  refine congr (congr (congr (congrArg (convSpec 847) ?_) ?_) ?_) ?_
  · refine (Ref.agg_cell (val_main_v9 (F := Ideal) (m ((c : Thread Cert.KernelIdeal.nD Cert.KernelIdeal.τ).loc Cert.KernelIdeal.main_arg0)) (m ((c : Thread Cert.KernelIdeal.nD Cert.KernelIdeal.τ).loc Cert.KernelIdeal.main_arg8))) (val_main_v18 (F := Ideal) (m ((c : Thread Cert.KernelIdeal.nD Cert.KernelIdeal.τ).loc Cert.KernelIdeal.main_arg9))) (val_main_v15 (F := Ideal) (m ((c : Thread Cert.KernelIdeal.nD Cert.KernelIdeal.τ).loc Cert.KernelIdeal.main_arg8)))).trans ?_
    refine ((matAgg_count_eq_agg 4762 847 (by decide) _ (combCol (m ((c : Thread Cert.KernelIdeal.nD Cert.KernelIdeal.τ).loc Cert.KernelIdeal.main_arg9)) (m ((c : Thread Cert.KernelIdeal.nD Cert.KernelIdeal.τ).loc Cert.KernelIdeal.main_arg8)) 4762#32) _ _ hs hc).symm).trans ?_
    exact congrArg₂ (matAgg 4762 847) (Ker.count_cell _).symm rfl
  · funext i
    exact (Lib.col_of_vec_apply (nrmC (F := Ideal) (m ((c : Thread Cert.KernelIdeal.nD Cert.KernelIdeal.τ).loc Cert.KernelIdeal.main_arg9))) _ i).symm
  · rfl
  · funext k
    exact (Lib.row_of_vec_apply (m ((c : Thread Cert.KernelIdeal.nD Cert.KernelIdeal.τ).loc Cert.KernelIdeal.main_arg3)) _ k).symm
/-- The gene table. -/
theorem gene_eq (hr : InRange m c) :
    val_main_v66 (F := Ideal) (m ((c : Thread Cert.KernelIdeal.nD Cert.KernelIdeal.τ).loc Cert.KernelIdeal.main_arg1)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg10)) (m ((c : Thread Cert.KernelIdeal.nD Cert.KernelIdeal.τ).loc Cert.KernelIdeal.main_arg11)) = geneOut (F := Ideal) m c := by
  have hsrc : ∀ e : Fin 200000, val_main_v48 (F := Ideal) (m ((c : Thread Cert.KernelIdeal.nD Cert.KernelIdeal.τ).loc Cert.KernelIdeal.main_arg10)) (ix2 e (0 : Fin 1)) = (m ((c : Thread Cert.KernelIdeal.nD Cert.KernelIdeal.τ).loc Cert.KernelIdeal.main_arg10)) (ix1 e) := fun e =>
    Words.wrapped_col_apply 847#32 _ _ (m ((c : Thread Cert.KernelIdeal.nD Cert.KernelIdeal.τ).loc Cert.KernelIdeal.main_arg10)) e ((hr e).2.2.1).1
  have hdst : ∀ e : Fin 200000, val_main_v51 (F := Ideal) (m ((c : Thread Cert.KernelIdeal.nD Cert.KernelIdeal.τ).loc Cert.KernelIdeal.main_arg11)) (ix2 e (0 : Fin 1)) = (m ((c : Thread Cert.KernelIdeal.nD Cert.KernelIdeal.τ).loc Cert.KernelIdeal.main_arg11)) (ix1 e) := fun e =>
    Words.col_apply _ (m ((c : Thread Cert.KernelIdeal.nD Cert.KernelIdeal.τ).loc Cert.KernelIdeal.main_arg11)) e
  have hs : ∀ e : Fin NE, 0 ≤ (val_main_v48 (F := Ideal) (m ((c : Thread Cert.KernelIdeal.nD Cert.KernelIdeal.τ).loc Cert.KernelIdeal.main_arg10)) (ix2 e 0)).toInt ∧ (val_main_v48 (F := Ideal) (m ((c : Thread Cert.KernelIdeal.nD Cert.KernelIdeal.τ).loc Cert.KernelIdeal.main_arg10)) (ix2 e 0)).toInt < ((847 : ℕ) : ℤ) := fun e => by
    rw [hsrc e]; exact (hr e).2.2.1
  have hc : ∀ e : Fin NE, (combCol (m ((c : Thread Cert.KernelIdeal.nD Cert.KernelIdeal.τ).loc Cert.KernelIdeal.main_arg11)) (m ((c : Thread Cert.KernelIdeal.nD Cert.KernelIdeal.τ).loc Cert.KernelIdeal.main_arg10)) 847#32 (ix2 e 0)).toInt
      = (val_main_v51 (F := Ideal) (m ((c : Thread Cert.KernelIdeal.nD Cert.KernelIdeal.τ).loc Cert.KernelIdeal.main_arg11)) (ix2 e 0)).toInt * ((847 : ℕ) : ℤ) + (val_main_v48 (F := Ideal) (m ((c : Thread Cert.KernelIdeal.nD Cert.KernelIdeal.τ).loc Cert.KernelIdeal.main_arg10)) (ix2 e 0)).toInt := fun e => by
    rw [hsrc e, hdst e]
    exact Words.comb_col_toInt 847 4762 (by norm_num) _ _ (m ((c : Thread Cert.KernelIdeal.nD Cert.KernelIdeal.τ).loc Cert.KernelIdeal.main_arg11)) (m ((c : Thread Cert.KernelIdeal.nD Cert.KernelIdeal.τ).loc Cert.KernelIdeal.main_arg10)) e ((hr e).2.2.2) ((hr e).2.2.1)
  unfold geneOut
  rw [Ker.pay_gene]
  refine (Ref.conv_gene (val_main_v52 (F := Ideal) (m ((c : Thread Cert.KernelIdeal.nD Cert.KernelIdeal.τ).loc Cert.KernelIdeal.main_arg1)) (m ((c : Thread Cert.KernelIdeal.nD Cert.KernelIdeal.τ).loc Cert.KernelIdeal.main_arg10)) (m ((c : Thread Cert.KernelIdeal.nD Cert.KernelIdeal.τ).loc Cert.KernelIdeal.main_arg11))) (val_main_v58 (F := Ideal) (m ((c : Thread Cert.KernelIdeal.nD Cert.KernelIdeal.τ).loc Cert.KernelIdeal.main_arg11))) (m ((c : Thread Cert.KernelIdeal.nD Cert.KernelIdeal.τ).loc Cert.KernelIdeal.main_arg4)) (m ((c : Thread Cert.KernelIdeal.nD Cert.KernelIdeal.τ).loc Cert.KernelIdeal.main_arg5))).trans ?_
  refine congr (congr (congr (congrArg (convSpec 4762) ?_) ?_) ?_) ?_
  · refine (Ref.agg_gene (val_main_v42 (F := Ideal) (m ((c : Thread Cert.KernelIdeal.nD Cert.KernelIdeal.τ).loc Cert.KernelIdeal.main_arg1)) (m ((c : Thread Cert.KernelIdeal.nD Cert.KernelIdeal.τ).loc Cert.KernelIdeal.main_arg10))) (val_main_v51 (F := Ideal) (m ((c : Thread Cert.KernelIdeal.nD Cert.KernelIdeal.τ).loc Cert.KernelIdeal.main_arg11))) (val_main_v48 (F := Ideal) (m ((c : Thread Cert.KernelIdeal.nD Cert.KernelIdeal.τ).loc Cert.KernelIdeal.main_arg10)))).trans ?_
    refine ((matAgg_count_eq_agg 847 4762 (by decide) _ (combCol (m ((c : Thread Cert.KernelIdeal.nD Cert.KernelIdeal.τ).loc Cert.KernelIdeal.main_arg11)) (m ((c : Thread Cert.KernelIdeal.nD Cert.KernelIdeal.τ).loc Cert.KernelIdeal.main_arg10)) 847#32) _ _ hs hc).symm).trans ?_
    exact congrArg₂ (matAgg 847 4762) (Ker.count_gene _).symm rfl
  · funext i
    exact (Lib.col_of_vec_apply (nrmG (F := Ideal) (m ((c : Thread Cert.KernelIdeal.nD Cert.KernelIdeal.τ).loc Cert.KernelIdeal.main_arg11))) _ i).symm
  · rfl
  · funext k
    exact (Lib.row_of_vec_apply (m ((c : Thread Cert.KernelIdeal.nD Cert.KernelIdeal.τ).loc Cert.KernelIdeal.main_arg5)) _ k).symm

/-- The decoder's scores. -/
theorem score_eq (ρ : Dev Cert.KernelIdeal.nD → PrngReg) (hr : InRange m c) :
    val_main_v86 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13))
      = Cert.KernelIdeal.Gen.W13 m ρ c (Proc.devRef .tc Cert.KernelIdeal.main_v80) := by
  rw [W13_v80, Ker.decode_ker]
  refine (Ref.decode_ref (val_main_v66 (F := Ideal) (m ((c : Thread Cert.KernelIdeal.nD Cert.KernelIdeal.τ).loc Cert.KernelIdeal.main_arg1)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg10)) (m ((c : Thread Cert.KernelIdeal.nD Cert.KernelIdeal.τ).loc Cert.KernelIdeal.main_arg11)))
    (val_main_v67 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg8)) (m ((c : Thread Cert.KernelIdeal.nD Cert.KernelIdeal.τ).loc Cert.KernelIdeal.main_arg9))) (m ((c : Thread Cert.KernelIdeal.nD Cert.KernelIdeal.τ).loc Cert.KernelIdeal.main_arg6)) (m ((c : Thread Cert.KernelIdeal.nD Cert.KernelIdeal.τ).loc Cert.KernelIdeal.main_arg7))
    (val_main_v73 (F := Ideal) (m ((c : Thread Cert.KernelIdeal.nD Cert.KernelIdeal.τ).loc Cert.KernelIdeal.main_arg12))) (val_main_v80 (F := Ideal) (m ((c : Thread Cert.KernelIdeal.nD Cert.KernelIdeal.τ).loc Cert.KernelIdeal.main_arg13)))).trans ?_
  rw [gene_eq m c hr, cell_eq m c hr]
  rfl

end Cert.Rgcn.Meet

end
-- ==== Proof.lean ====
/-
  The certificate of the relational graph convolution: a kernel that aggregates messages as the product of the
  edge-count matrix with the source features, against the reference that looks the source rows up edge by edge
  and sums them at their destinations.

  The two agree on the extended reals when every edge's source and destination word is a node number of its
  node set (the precondition says so; outside that range the reference itself indexes out of range): then the
  combined word destination · NS + source of an edge names exactly the count-matrix cell of that edge, and a sum
  of counts times feature rows is the sum of the feature rows over the counted edges. Everything downstream — the
  scaling by the destination norm, the weight matrix, the bias, the clamp at zero, and the decoder's projection
  of the two looked-up rows — is the same function of the aggregated array on both sides, the decoder's sum over
  512 joined columns splitting into the two sums over 256.
-/
import proofs.«424038_j7739531067737_3_alg».proof.Defs
import proofs.«424038_j7739531067737_3_alg».proof.Proof.Gen.Kernel
import proofs.«424038_j7739531067737_3_alg».proof.Proof.Gen.Kernel.Frame
import proofs.«424038_j7739531067737_3_alg».proof.Proof.Gen.KernelIdeal
import proofs.«424038_j7739531067737_3_alg».proof.Proof.Gen.KernelIdeal.Frame
import proofs.«424038_j7739531067737_3_alg».proof.Proof.Gen.ReferenceIdeal
import proofs.«424038_j7739531067737_3_alg».proof.Proof.Gen.ReferenceIdeal.Run
import proofs.«424038_j7739531067737_3_alg».proof.Proof.Gen.ReferenceIdeal.Read
import proofs.«424038_j7739531067737_3_alg».proof.Proof.Gen.Pre_finite_inputs
import proofs.«424038_j7739531067737_3_alg».proof.Proof.KernelRun
import proofs.«424038_j7739531067737_3_alg».proof.Proof.KernelValue
import proofs.«424038_j7739531067737_3_alg».proof.Proof.PreDecode
import proofs.«424038_j7739531067737_3_alg».proof.Proof.Meet
import Idealize.ShloMosaic.Adequacy
import Idealize.ShloMosaic.Init

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The three frames: the two kernel programs' by their generated frame certificates, the reference's by its
    generated run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs run, and end with equal scores, gene table and cell table. -/
theorem algebraic : Cert.algebraic_KernelIdeal_ReferenceIdeal := by
  intro m ρ m' ρ' hpre hagree
  have hr : ∀ c, Cert.Rgcn.Meet.InRange m c := fun c e =>
    Cert.Rgcn.Pre.in_range (F := Ideal) _ _ _ _ _ _ _ _ _ _ _ _ _ _ (hpre c) e
  refine ⟨fun c => Cert.KernelIdeal.Gen.W13 m ρ c (Proc.devRef .tc Cert.KernelIdeal.main_v80), fun c => Cert.KernelIdeal.RunValue.geneOut m c,
    fun c => Cert.KernelIdeal.RunValue.cellOut m c, ?_, ?_⟩
  · exact (θ_run Cert.KernelIdeal.defs _ _).mono (fun r h c => ⟨(h c).1, (h c).2.1.trans (Cert.KernelIdeal.RunValue.W13_v58 m ρ c),
      (h c).2.2.1.trans (Cert.KernelIdeal.RunValue.W13_v56 m ρ c), (h c).2.2.2⟩) (Cert.KernelIdeal.RunValue.run_results m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v86_eq]
      obtain ⟨h0, h1, h2, h3, h4, h5, h6, h7, h8, h9, h10, h11, h12, h13⟩ := hagree c
      rw [h0, h1, h2, h3, h4, h5, h6, h7, h8, h9, h10, h11, h12, h13]
      exact Cert.Rgcn.Meet.score_eq m c ρ (hr c)
    · obtain ⟨h0, h1, h2, h3, h4, h5, h6, h7, h8, h9, h10, h11, h12, h13⟩ := hagree c
      rw [h1, h4, h5, h10, h11]
      exact Cert.Rgcn.Meet.gene_eq m c (hr c)
    · obtain ⟨h0, h1, h2, h3, h4, h5, h6, h7, h8, h9, h10, h11, h12, h13⟩ := hagree c
      rw [h0, h2, h3, h8, h9]
      exact Cert.Rgcn.Meet.cell_eq m c (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
